-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg2 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg2 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  main_v20

def fn {F : FTy → Type} [FloatOps F] (main_arg0 : FVec F S10000x128 .f32) (main_arg1 : FVec F S640000 .f32) (main_arg2 : IVec S640000 32) (main_arg3 : IVec S640000 32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg2 main_v14
  let main_c_5 : IVec S_ 32 := constantI S_ 32 10000#32
  fn_part1 (F := F) main_arg2 main_v13 main_v15 main_c_5
-- ==== Kernel.lean ====
abbrev S10000x128 : Shape := ⟨2, ![10000, 128]⟩
abbrev S640000 : Shape := ⟨1, ![640000]⟩
abbrev S128x128 : Shape := ⟨2, ![128, 128]⟩
abbrev S1x640000 : Shape := ⟨2, ![1, 640000]⟩
abbrev S2x10000x128 : Shape := ⟨3, ![2, 10000, 128]⟩
abbrev S1x256 : Shape := ⟨2, ![1, 256]⟩
abbrev S1x10000x128 : Shape := ⟨3, ![1, 10000, 128]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 15
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S10000x128, .f32⟩
  | .hbm, ⟨6, _⟩ => ⟨S1x640000, .f32⟩
  | .hbm, ⟨7, _⟩ => ⟨S1x640000, .i32⟩
  | .hbm, ⟨8, _⟩ => ⟨S1x640000, .i32⟩
  | .hbm, ⟨9, _⟩ => ⟨S2x10000x128, .f32⟩
  | .hbm, ⟨10, _⟩ => ⟨S1x10000x128, .f32⟩
  | .hbm, ⟨11, _⟩ => ⟨S10000x128, .f32⟩
  | .hbm, ⟨12, _⟩ => ⟨S1x10000x128, .f32⟩
  | .hbm, ⟨13, _⟩ => ⟨S10000x128, .f32⟩
  | .hbm, ⟨14, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S1x256, .f32⟩
  | .local _ .vmem, ⟨5, _⟩ => ⟨S1x256, .f32⟩
  | .local _ .vmem, ⟨6, _⟩ => ⟨S1x256, .i32⟩
  | .local _ .vmem, ⟨7, _⟩ => ⟨S1x256, .i32⟩
  | .local _ .vmem, ⟨8, _⟩ => ⟨S1x256, .i32⟩
  | .local _ .vmem, ⟨9, _⟩ => ⟨S1x256, .i32⟩
  | .local _ .vmem, ⟨10, _⟩ => ⟨S1x10000x128, .f32⟩
  | .local _ .vmem, ⟨11, _⟩ => ⟨S10000x128, .bf16⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 1250], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x10000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S640000_S1x640000 : S640000.ShapeCasts S1x640000
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  iota_S10000x1_d0_w32 : S10000x1.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S10000x1_S10000x256 : S10000x1.Broadcasts S10000x256
  broadcasts_S1x256_S10000x256 : S1x256.Broadcasts S10000x256
  natLt_1_32 : 1 < 32
  slices_S2x10000x128_S1x10000x128_0_0_0 : S2x10000x128.Slices ![0, 0, 0] S1x10000x128
  slices_S2x10000x128_S1x10000x128_1_0_0 : S2x10000x128.Slices ![1, 0, 0] S1x10000x128
  dot_S10000x128_S128x128_S10000x128_1_1_0_0_n_n_wf : DotDims.WF S10000x128 S128x128 S10000x128 [1] [1] [0] [0] [] []
  dot_S10000x256_S10000x128_S256x128_0_0_1_1_n_n_wf : DotDims.WF S10000x256 S10000x128 S256x128 [0] [0] [1] [1] [] []
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x640000.size a
  hwx1_1 : ∀ i : grid1.Coords, EltTy.bits .f32 = 32 ∨ (Rect.block (s := S1x640000) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x640000.size a
  hwx1_2 : ∀ i : grid1.Coords, EltTy.bits .i32 = 32 ∨ (Rect.block (s := S1x640000) S1x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x640000.size a
  hwx1_3 : ∀ i : grid1.Coords, EltTy.bits .i32 = 32 ∨ (Rect.block (s := S1x640000) S1x256.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10000x128.size a ≤ S2x10000x128.size a
  hwx1_4 : ∀ i : grid1.Coords, EltTy.bits .f32 = 32 ∨ (Rect.block (s := S2x10000x128) S1x10000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .f32 = 32 ∨ (Rect.block (s := S10000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .f32 = 32 ∨ (Rect.block (s := S10000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S10000x128.size a
  hwx2_3 : ∀ i : grid2.Coords, EltTy.bits .f32 = 32 ∨ (Rect.block (s := S10000x128) S10000x128.size (cc2_transform_3 i) (hinb2_3 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x10000x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S10000x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S640000x1, .f32⟩
  | .hbm, ⟨15, _⟩ => ⟨S640000x128, .f32⟩
  | .hbm, ⟨16, _⟩ => ⟨S640000x128, .f32⟩
  | .hbm, ⟨17, _⟩ => ⟨S_, .f32⟩
  | .hbm, ⟨18, _⟩ => ⟨S10000x128, .f32⟩
  | .hbm, ⟨19, _⟩ => ⟨S640000x1, .i32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S128x128, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  transposes_S128x128_S128x128_1_0 : S128x128.Transposes [1, 0] S128x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.K.R0.lean ====
import proofs.«425447_j55594056679593_3_alg».proof.Proof.Gen.Kernel.Launch
import proofs.«425447_j55594056679593_3_alg».proof.Proof.Gen.Kernel.Skeleton
import proofs.«425447_j55594056679593_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main, at the contents the region is entered with

Everything here is stated at a parameter `V`: what each buffer of the core holds when the region
begins. From `V` we read each window's block, say what the body leaves in the output window's
buffer, prove the body's triple, and package the pipeline's proof data with its body obligation. -/

-- deciding that one rectangle fills a 10000 × 128 buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## The windows' blocks -/

/-- The block of window `w` at grid point `t`: the slice of the window's array, as `V` gives it, that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds the window's block at every point, for any proof data whose
    array is `V`'s and whose body leaves that buffer alone: the window is whole, never idle, and nothing
    between two fetches writes it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- All of a 10000 × 128 buffer. -/
abbrev r0_0 : Rect S10000x128 := Rect.unit (s := S10000x128) ![0, 0] S10000x128.size inb_S10000x128_S10000x128_0_0
/-- All of a 128 × 128 buffer. -/
abbrev r0_1 : Rect S128x128 := Rect.unit (s := S128x128) ![0, 0] S128x128.size inb_S128x128_S128x128_0_0

/-! ## What the body leaves in the output window's buffer -/

/-- The output buffer after the body, as a function of the two input blocks: a single store of the
    product payload over the whole buffer. -/
def out0_2 (x0 : Vec F S10000x128 .f32) (x1 : Vec F S128x128 .f32) : Vec F S10000x128 .f32 :=
  View.canon [⟨r0_0, k0_pay1 (View.ld x0 r0_0) (View.ld x1 r0_1)⟩]

/-- That one store reaches every index of the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- Given the two input buffers at `x0`, `x1` and the output buffer at any contents, the body runs to a
    state with the inputs unchanged and the output at `out0_2 x0 x1`. The body reads the output buffer
    once before overwriting it; what it reads there is discarded, so any contents will do. -/
theorem sound_kernel0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Proof data for the pipeline on core `c`: the arrays are `V`'s; after the body at point `t` each input's
    buffer still holds its block and the output's holds `out0_2` of the two input blocks; the invariant
    is the one that leaves the scoped rest and the generator register untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Before the body each input's current buffer holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What holds when the body is called at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what the core owes are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«425447_j55594056679593_3_alg».proof.Proof.Gen.Kernel.Launch
import proofs.«425447_j55594056679593_3_alg».proof.Proof.Gen.Kernel.Skeleton
import proofs.«425447_j55594056679593_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # Region 1 of @main: what its two cases share

Region 1 walks a 2 × 1250 grid. Point `t` has coordinates `(t / 1250, t % 1250)`. At the first point of
each row (`t % 1250 = 0`) the body zeroes its output block and fills the scratch from window 0; at every
point it then adds one tile's contribution to the output block. Everything is stated at a parameter `V`:
what each buffer of the core holds when the region begins. This file fixes the windows' blocks, the body's
one branch condition in closed form, the staging memrefs as the pipeline passes them, and the region
invariant with the scratch named as a memref. -/

-- deciding that one rectangle fills a 10000 × 128 buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## The windows' blocks -/

/-- The block of window `w` at grid point `t`: the slice of the window's array, as `V` gives it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds the window's block at every point — although it is fetched at the first point only, its block index never moves —, for any proof data whose array is `V`'s and whose body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for input window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the second coordinate is zero. -/
abbrev cond1_0 (i : grid1.Coords) : Prop := (Scalar.cmpi .ne (Scalar.extui (Scalar.cmpi .eq (BitVec.ofNat 32 (i 1).val) 0#32)) 0#32) = 1#1

/-- It holds exactly at the first point of each row of the grid. -/
theorem hcond1_0 : ∀ t : Fin cfg1.N, cond1_0 (grid1.coords t) ↔ t.val % 1250 = 0 :=
  (by decide +kernel : ∀ t : Fin grid1.N, cond1_0 (grid1.coords t) ↔ t.val % 1250 = 0)

/-! ## The staging memrefs and the scratch -/

/-- One staging buffer of the output window, through which its contents are stated. -/
abbrev VO1_4 : View sig .tc .vmem S1x10000x128 .f32 := (Memref.whole cc1_stg4_0 : Memref sig .tc .vmem S1x10000x128 .f32).view

/-- Each window's current staging memref at point `t`, as the pipeline passes it to the body, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10000x128 .f32 := win1_4.stage (cfg1.slots t 4)
abbrev hs1_4 (t : Fin cfg1.N) : (ms1_4 t).IsWhole := hstage1_4 ((cfg1.slots t 4).cast nbuf1_4)

/-- The scratch operand: a whole scoped buffer of the kernel's own, passed beside the windows. -/
abbrev scM1_0 : Memref sig .tc .vmem S10000x128 .bf16 := Memref.whole cc1_scratch0
/-- The same as a view: what the scratch holds between points is stated through it. -/
abbrev VS1_0 : View sig .tc .vmem S10000x128 .bf16 := scM1_0.view

/-- The core's scoped buffers that are no staging buffer of region 1 — the other two regions' staging buffers, each
    whole at some contents, and the scratch —, with the scratch's place held by `P`. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ P ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- The region's resting invariant with the scratch singled out as a memref owned at some contents: what the
    body obligation hands the body and takes back. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.Kernel.Hand

end
-- ==== Proof.K.R1RunA.lean ====
import proofs.«425447_j55594056679593_3_alg».proof.Proof.K.R1Runs

/-! # Region 1, the body's run at the first point of a row

At a point whose second coordinate is zero the body takes its branch: it zeroes the output block, fills the
scratch from window 0's block, and then — as at every point — adds one tile's contribution to the output
block. The run is found by executing the body's skeleton; the pieces each buffer ends with are its witness. -/

-- deciding that one rectangle fills a 10000 × 128 buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- What the body's stores leave in the output's staging memref and in the scratch, as pieces (last first), at a
    point where the branch is taken, WITH the proof that on whole memrefs — the four inputs' at their contents,
    the output's and the scratch's at anything — the body runs to the continuation holding the inputs' as they
    were and the output's and the scratch's with their pieces written. -/
noncomputable def kernelRun1_A (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) :
    Σ' (L4 : List (View.Piece (Elt F) S1x10000x128 .f32)), { LS0 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gather_scatter_kernel i arg2 harg2 arg3 harg3 arg4 harg4 arg5 harg5 arg6 harg6 arg7 harg7) K } := by
  refine ⟨?_, ?_, fun E K => ?run⟩
  case run =>
    simp only [cc1__gather_scatter_kernel_eq_skeleton]; unfold cc1__gather_scatter_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.K.R1RunB.lean ====
import proofs.«425447_j55594056679593_3_alg».proof.Proof.K.R1RunA

/-! # Region 1, the body's run at a later point of a row

At a point whose second coordinate is not zero the body skips its branch: it reads the scratch, which it does
not store into, and adds one tile's contribution to the output block it finds, which the point before left. -/

-- deciding that one rectangle fills a 10000 × 128 buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- What the body's store leaves in the output's staging memref, as pieces, at a point where the branch is not
    taken, WITH the proof that on whole memrefs — the four inputs' at their contents, the output's at its running
    contents `xo4`, the scratch's at its contents `xs0` — the body runs to the continuation holding the inputs'
    and the scratch's as they were and the output's with its pieces written. -/
noncomputable def kernelRun1_B (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) :
    { L4 : List (View.Piece (Elt F) S1x10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1__gather_scatter_kernel i arg2 harg2 arg3 harg3 arg4 harg4 arg5 harg5 arg6 harg6 arg7 harg7) K } := by
  refine ⟨?_, fun E K => ?run⟩
  case run =>
    simp only [cc1__gather_scatter_kernel_eq_skeleton]; unfold cc1__gather_scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

end Cert.Kernel.Hand

end
-- ==== Proof.K.R1.lean ====
import proofs.«425447_j55594056679593_3_alg».proof.Proof.K.R1RunB

/-! # Region 1 of @main: the proof data and the body obligation

What the output block and the scratch hold after each point of the grid, by recursion on the point: at the first
point of a row what that case's run leaves; at a later point what that case's run leaves over what the point
before left. From these the pipeline's proof data, the body obligation at every point, and the passage between
the region's resting invariant and the invariant carried between points. -/

-- deciding that one rectangle fills a 10000 × 128 buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## What each case leaves -/

/-- At the first point of a row the body's two stores into the output block each tile it, so the pieces cover it. -/
theorem cover1_A_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) (y : S1x10000x128.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x10000x128.size (by sl_kernel_rfl) y

/-- What the first point of a row leaves in the output's staging buffer: its pieces read back over junk. -/
def out1_A_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) : Vec F S1x10000x128 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- At the first point of a row the body's one store into the scratch tiles it, so the pieces cover it. -/
theorem scover1_A_0 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) (y : S10000x128.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S10000x128.size (by sl_kernel_rfl) y

/-- What the first point of a row leaves in the scratch: its pieces read back over junk. -/
def sout1_A_0 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) : Vec F S10000x128 .bf16 :=
  VS1_0.read (Elt F) (VS1_0.writes (Elt F) VS1_0.junk (kernelRun1_A c i arg2 harg2 arg3 harg3 arg4 harg4 arg5 harg5 arg6 harg6 arg7 harg7 hc0 x0 x1 x2 x3).2.1)

/-- At a later point of a row the body's one store into the output block tiles it, so the piece covers it. -/
theorem cover1_B_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) (y : S1x10000x128.Idx) :
    ∃ pc ∈ (kernelRun1_B c i arg2 harg2 arg3 harg3 arg4 harg4 arg5 harg5 arg6 harg6 arg7 harg7 hc0 x0 x1 x2 x3 xo4 xs0).1, y ∈ pc.1.set :=
  View.cover_of_tiledL (kernelRun1_B c i arg2 harg2 arg3 harg3 arg4 harg4 arg5 harg5 arg6 harg6 arg7 harg7 hc0 x0 x1 x2 x3 xo4 xs0).1 S1x10000x128.size (by sl_kernel_rfl) y

/-- What a later point of a row leaves in the output's staging buffer: its piece read back over junk. -/
def out1_B_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) : Vec F S1x10000x128 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xs0).1)

/-! ## What the output block and the scratch hold after each point -/

/-- The accumulation. After the body at position `n`, the output's staging buffer and the scratch (a pair, in that
    order): at the first point of a row, what that case leaves at the point's memrefs and input blocks; at a later point,
    what that case leaves over the pair at `n - 1` — the output block accumulated, the scratch unchanged. -/
def outsAt1 (c : Dev nD) : (n : ℕ) → n < cfg1.N → Vec F S1x10000x128 .f32 × Vec F S10000x128 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 1250 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, (outsAt1 c n (Nat.lt_of_succ_lt hn)).2)

/-- `outsAt1` at the first point of a row. -/
theorem outsAt1_A (c : Dev nD) (t : Fin cfg1.N) (h0 : t.val % 1250 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a later point of a row: over what the point before left. -/
theorem outsAt1_B (c : Dev nD) (t : Fin cfg1.N) (h0 : ¬t.val % 1250 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant carried between points -/

/-- The region invariant before position `n`: before the first point the region's resting invariant (the scratch at
    anything); afterwards the same with the scratch at what the point before left in it. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- Proof data for the pipeline on core `c`: the arrays are `V`'s; after the body at point `t` each input's buffer
    still holds its block and the output's holds `outsAt1`'s first component; the invariant is `PhiS1`; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Before the body each input's current buffer holds its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point of a row the output's staging buffer holds what the body left at the point before: the point is
    not the first, and the block is written back only at the last point of a row, which the point before is not. -/
theorem before1_4_B (c : Dev nD) (t : Fin cfg1.N) (h0 : ¬t.val % 1250 = 0) (d) :
    (dat1 V c).before 4 t d = (outsAt1 V c (t.val - 1) (Nat.lt_of_le_of_lt (Nat.sub_le _ _) t.isLt)).1 := by
  have hN : t.val < 2500 := lt_of_lt_of_eq t.isLt (show cfg1.N = 2500 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What holds when the body is called at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what holds when it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' buffers hold their blocks. At the first point of a row the run of that case
    applies with the output's buffer and the scratch at anything — the invariant hands the scratch over at anything
    at the grid's first point and at what the point before left otherwise — and takes the scratch back at what the
    case's pieces cover it with. At a later point the output's buffer holds what the point before left, the
    invariant hands the scratch over at what the point before left, and takes it back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 2500 := lt_of_lt_of_eq t.isLt (show cfg1.N = 2500 from N_1)
  by_cases h0 : t.val % 1250 = 0
  · rw [outsAt1_A V c t h0]
    unfold out1_A_4 sout1_A_0; (try dsimp only)
    by_cases hz : t.val = 0
    ·
      rw [PhiS1_castSucc V c t, PhiS1_zero V c _ _ hz, PhiA1_eq]
      unfold scoped1
      iintro ⟨⟨⟨R0, R1, R2, HS0, R4, R5, R6, R7⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R0 R1 R2 HS0 R4 R5 R6 R7 Hg]
      · isplitr [Hg]
        · isplitl [R0]; · iexact R0
          isplitl [R1]; · iexact R1
          isplitl [R2]; · iexact R2
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [R4]; · iexact R4
          isplitl [R5]; · iexact R5
          isplitl [R6]; · iexact R6
          iexact R7
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    ·
      rw [PhiS1_castSucc V c t, PhiS1_pos V c _ _ hz]
      unfold scoped1
      iintro ⟨⟨⟨R0, R1, R2, HS0, R4, R5, R6, R7⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [R0 R1 R2 HS0 R4 R5 R6 R7 Hg]
      · isplitr [Hg]
        · isplitl [R0]; · iexact R0
          isplitl [R1]; · iexact R1
          isplitl [R2]; · iexact R2
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [R4]; · iexact R4
          isplitl [R5]; · iexact R5
          isplitl [R6]; · iexact R6
          iexact R7
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    simp only [before1_4_B V c t h0]
    unfold out1_B_4; (try dsimp only)
    by_cases hz : t.val = 0
    · exfalso; rw [hz] at h0; exact h0 (Nat.zero_mod _)
    · rw [PhiS1_castSucc V c t, PhiS1_pos V c _ _ hz]
      unfold scoped1
      iintro ⟨⟨⟨R0, R1, R2, HS0, R4, R5, R6, R7⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, ⟨%e4, H4⟩, HS0⟩
      isplitl [R0 R1 R2 HS0 R4 R5 R6 R7 Hg]
      · isplitr [Hg]
        · isplitl [R0]; · iexact R0
          isplitl [R1]; · iexact R1
          isplitl [R2]; · iexact R2
          isplitl [HS0]
          · iexact HS0
          isplitl [R4]; · iexact R4
          isplitl [R5]; · iexact R5
          isplitl [R6]; · iexact R6
          iexact R7
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _ _)

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

/-! ## In and out of the region -/

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨R0, R1, R2, HS0, R4, R5, R6, R7⟩, Hg⟩
  isplitr [Hg]
  · isplitl [R0]; · iexact R0
    isplitl [R1]; · iexact R1
    isplitl [R2]; · iexact R2
    isplitl [HS0]; · iexists _; iexact HS0
    isplitl [R4]; · iexact R4
    isplitl [R5]; · iexact R5
    isplitl [R6]; · iexact R6
    iexact R7
  iexact Hg

/-- The same after the last point. -/
theorem hout1 (c : Dev nD) : (dat1 V c).Φ (Fin.last cfg1.N) ⊢ Pipeline.ΦA spec1 c :=
  Phi_out1 V c _ (by rw [Fin.val_last]; have : cfg1.N = 2500 := N_1; omega)

end Cert.Kernel.Hand

end
-- ==== Proof.K.R2.lean ====
import proofs.«425447_j55594056679593_3_alg».proof.Proof.Gen.Kernel.Launch
import proofs.«425447_j55594056679593_3_alg».proof.Proof.Gen.Kernel.Skeleton
import proofs.«425447_j55594056679593_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main, at the contents the region is entered with

Everything here is stated at a parameter `V`: what each buffer of the core holds when the region
begins. From `V` we read each window's block, say what the body leaves in the output window's
buffer, prove the body's triple, and package the pipeline's proof data with its body obligation. -/

-- deciding that one rectangle fills a 10000 × 128 buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## The windows' blocks -/

/-- The block of window `w` at grid point `t`: the slice of the window's array, as `V` gives it, that
    the window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of input window 0 holds the window's block at every point, for any proof data whose
    array is `V`'s and whose body leaves that buffer alone: the window is whole, never idle, and nothing
    between two fetches writes it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- and for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangle the body reads and writes -/

/-- All of a 10000 × 128 buffer: every load and the one store of the body use it. -/
abbrev r2_0 : Rect S10000x128 := Rect.unit (s := S10000x128) ![0, 0] S10000x128.size inb_S10000x128_S10000x128_0_0

/-! ## What the body leaves in the output window's buffer -/

/-- The output buffer after the body, as a function of the three input blocks: a single store of the
    sum payload over the whole buffer. -/
def out2_3 (x0 x1 x2 : Vec F S10000x128 .f32) : Vec F S10000x128 .f32 :=
  View.canon [⟨r2_0, k2_pay1 (View.ld x0 r2_0) (View.ld x1 r2_0) (View.ld x2 r2_0)⟩]

/-- That one store reaches every index of the buffer. -/
theorem cover2_3 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- Given the three input buffers at `x0`, `x1`, `x2` and the output buffer at any contents, the body runs
    to a state with the inputs unchanged and the output at `out2_3 x0 x1 x2`. The body reads the output
    buffer once before overwriting it; what it reads there is discarded, so any contents will do. -/
theorem sound_kernel2 (c : Dev nD) (E : Set ℕ) (i : grid2.Coords)
    (arg1 : Memref sig .tc .vmem S10000x128 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S10000x128 .f32) (harg4 : arg4.IsWhole)
    (x0 x1 x2 : Vec F S10000x128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Proof data for the pipeline on core `c`: the arrays are `V`'s; after the body at point `t` each input's
    buffer still holds its block and the output's holds `out2_3` of the three input blocks; the invariant
    is the one that leaves the scoped rest and the generator register untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Before the body each input's current buffer holds its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What holds when the body is called at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant
    and what the core owes are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«425447_j55594056679593_3_alg».proof.Proof.K.R0
import proofs.«425447_j55594056679593_3_alg».proof.Proof.K.R1
import proofs.«425447_j55594056679593_3_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its three kernel regions

@main is: region 0; three reshapes; region 1; two slices, each followed by a reshape; region 2. Nothing runs
before region 0. We follow the contents of every unscoped buffer of a core from the launch to the return: a
host stretch rewrites the buffers its operations write, a region rewrites its windows' arrays with what its
pipeline leaves there. Each region is then entered from "every unscoped buffer at the contents reached so far"
and left at the next contents, and the five pieces chain from the launch memory to the last contents. Reading
the last contents back gives, for every argument, what the launch memory held, and for the result, what
region 2's pipeline leaves in its output array. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents of a core's buffers at each boundary of @main -/

/-- At the launch: what the memory holds on core `c`. -/
abbrev W0 (c : Dev nD) : Valuation τ sig (Elt F) := fun b => m (c, b)
/-- The same, read at the core's own references: what region 0 is entered with. -/
abbrev V0 : (c : Dev nD) → (b : Ref sig .tc) → Buf (Elt F) ((c : Thread nD τ).loc b) := fun c b => W0 m c b

/-- After region 0: each of its three arrays at what the pipeline leaves in it (an input as it was, the output at
    its folded write-backs), every other buffer as at the launch. The generator registers `ρ` play no part in
    the contents; they are carried so that every later boundary is named by the same two arguments as the launch. -/
def W1 (ρ : Dev nD → PrngReg) (c : Dev nD) : Valuation τ sig (Elt F) :=
  Pipeline.withArrays spec0 c (W0 m c) fun w => (dat0 (V0 m) c).arrAt w cfg0.N

variable (ρ : Dev nD → PrngReg)

theorem W1_arr (c : Dev nD) (w : Fin cfg0.W) :
    W1 m ρ c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m c (Proc.devRef .tc b) := by
  unfold W1; exact Pipeline.withArrays_of_ne spec0 c _ _ b hb
/-- Region 0's exit contents at the core's own references. -/
abbrev V1 : (c : Dev nD) → (b : Ref sig .tc) → Buf (Elt F) ((c : Thread nD τ).loc b) := fun c b => W1 m ρ c b
/-- At region 0's exit its arrays hold what the pipeline leaves, -/
theorem hF0 (c : Dev nD) (w : Fin cfg0.W) : (dat0 (V0 m) c).arrAt w cfg0.N = V1 m ρ c (Pipeline.arrRef spec0 w) :=
  (W1_arr m ρ c w).symm
/-- and every other buffer what it held at entry. -/
theorem hrest0 (c : Dev nD) : ∀ b, b ∉ Finset.univ.image (Pipeline.arrRef spec0) → V1 m ρ c b = V0 m c b :=
  fun b hb => W1_of_ne m ρ c b fun w e => hb (Finset.mem_image.mpr ⟨w, Finset.mem_univ _, e⟩)

/-- After the three reshapes: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After region 1: its five arrays at what the pipeline leaves, every other buffer as at its entry. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two slices and their reshapes: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2, which is the end of @main: its four arrays at what the pipeline leaves, the rest as at its entry. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## What the host stretches leave alone -/

/-- The three reshapes write `main_v1`, `main_v2`, `main_v3`; any other buffer keeps its contents. -/
theorem hostOps1_keeps (V : Valuation τ sig (Elt F)) (r : Ref sig .tc)
    (h1 : r ≠ main_v1) (h2 : r ≠ main_v2) (h3 : r ≠ main_v3) :
    StableHlo.after hostOps1 V (Proc.devRef .tc r) = V (Proc.devRef .tc r) :=
  StableHlo.after_of_forall_not_mem (b := Proc.devRef .tc r) hostOps1 V (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3⟩))

/-- The slices and reshapes write `main_v5`, `main_v6`, `main_v7`, `main_v8`; any other buffer keeps its contents. -/
theorem hostOps2_keeps (V : Valuation τ sig (Elt F)) (r : Ref sig .tc)
    (h5 : r ≠ main_v5) (h6 : r ≠ main_v6) (h7 : r ≠ main_v7) (h8 : r ≠ main_v8) :
    StableHlo.after hostOps2 V (Proc.devRef .tc r) = V (Proc.devRef .tc r) :=
  StableHlo.after_of_forall_not_mem (b := Proc.devRef .tc r) hostOps2 V (List.forall_iff_forall_mem.mp (by
    simp only [hostOps2, List.Forall, StableHlo.reshape_writes, StableHlo.unary_writes, Finset.mem_singleton]
    exact ⟨StableHlo.devRef_ne_of_ne h5, StableHlo.devRef_ne_of_ne h6, StableHlo.devRef_ne_of_ne h7, StableHlo.devRef_ne_of_ne h8⟩))

/-! ## The arguments and the result, read off the last contents

An argument is written by nobody: region 2 and region 1 have no window on it, no host operation writes it, and
region 0 either reads it through an input window (whose array the pipeline leaves as it found it) or has no window
on it. So the last contents at an argument walk back, boundary by boundary, to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := hostOps2_keeps _ main_arg0 (by decide) (by decide) (by decide) (by decide)
    _ = W2 m ρ c (Proc.devRef .tc main_arg0) := W3_of_ne m ρ c main_arg0 (by decide)
    _ = W1 m ρ c (Proc.devRef .tc main_arg0) := hostOps1_keeps _ main_arg0 (by decide) (by decide) (by decide)
    _ = W0 m c (Proc.devRef .tc main_arg0) :=
        (W1_arr m ρ c 0).trans (((dat0 (V0 m) c).arrAt_in 0 rfl _).trans (A_eq0 (V0 m) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := hostOps2_keeps _ main_arg1 (by decide) (by decide) (by decide) (by decide)
    _ = W2 m ρ c (Proc.devRef .tc main_arg1) := W3_of_ne m ρ c main_arg1 (by decide)
    _ = W1 m ρ c (Proc.devRef .tc main_arg1) := hostOps1_keeps _ main_arg1 (by decide) (by decide) (by decide)
    _ = W0 m c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := hostOps2_keeps _ main_arg2 (by decide) (by decide) (by decide) (by decide)
    _ = W2 m ρ c (Proc.devRef .tc main_arg2) := W3_of_ne m ρ c main_arg2 (by decide)
    _ = W1 m ρ c (Proc.devRef .tc main_arg2) := hostOps1_keeps _ main_arg2 (by decide) (by decide) (by decide)
    _ = W0 m c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := hostOps2_keeps _ main_arg3 (by decide) (by decide) (by decide) (by decide)
    _ = W2 m ρ c (Proc.devRef .tc main_arg3) := W3_of_ne m ρ c main_arg3 (by decide)
    _ = W1 m ρ c (Proc.devRef .tc main_arg3) := hostOps1_keeps _ main_arg3 (by decide) (by decide) (by decide)
    _ = W0 m c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := hostOps2_keeps _ main_arg4 (by decide) (by decide) (by decide) (by decide)
    _ = W2 m ρ c (Proc.devRef .tc main_arg4) := W3_of_ne m ρ c main_arg4 (by decide)
    _ = W1 m ρ c (Proc.devRef .tc main_arg4) := hostOps1_keeps _ main_arg4 (by decide) (by decide) (by decide)
    _ = W0 m c (Proc.devRef .tc main_arg4) :=
        (W1_arr m ρ c 1).trans (((dat0 (V0 m) c).arrAt_in 1 rfl _).trans (A_eq0 (V0 m) c 1))
    _ = m ((c : Thread nD τ).loc main_arg4) := rfl

/-- The result is region 2's output array: the last contents there are what its pipeline leaves. -/
theorem W5_main_v9 (c : Dev nD) : W5 m ρ c (Proc.devRef .tc main_v9) = (dat2 (V4 m ρ) c).arrAt 3 cfg2.N :=
  W5_arr m ρ c 3

/-! ## The proof data of the three pipelines and the thread state between pieces -/

/-- No pipeline prefetches a table, so each has exactly one admissible table contents. -/
abbrev adm : (p : Fin 3) → (pcfgs (F := F) p).Adm := fun p => (cfgs p).toPCfg_adm
/-- Each pipeline's proof data, taken at the contents its region is entered with. Written as a match on the three
    indices so that at a numeral the pinned configuration reduces to the printed one. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m ρ) c
  | ⟨2, _⟩ => fun c => dat2 (V4 m ρ) c
abbrev 𝒱₀ : Variants := Variants.none
/-- No core ever owes another anything, so no level is assigned anywhere. -/
abbrev L : GSem nD τ sig → Finset Unit := fun _ => ∅
abbrev lv : GSem nD τ sig → Unit → ℕ := fun _ _ => 0
/-- What a core holds beside its unscoped buffers between two pieces: its generator register at some state, and the
    record that it owes nothing. -/
abbrev R (c : Dev nD) : sProp 𝕄 := iprop((∃ r, prngReg c r) ∗ ∃ W, owes (c : Thread nD τ) (0 : CellTallies nD τ sig Unit) W)
/-- A host stretch as a piece of @main: it runs over the unscoped buffers from contents `W` to those contents after
    its operations, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host stretch allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the record of owing nothing: every unscoped buffer at the last contents and the
    generator register at some state. -/
abbrev Tₙ (c : Dev nD) : sProp 𝕄 := iprop(StableHlo.held (c : Thread nD τ) (Pipeline.ucRefs τ sig) (W5 m ρ c) ∗ ∃ r, prngReg c r)

/-! ## The regions as pieces of @main -/

-- the library's lemmas are stated over the pinned configuration `pin pcs a p`; applying them at pipeline 0 needs
-- unification to unfold definitions inside a metavariable's type
set_option backward.isDefEq.respectTransparency.types false in
/-- REGION 0 as a piece of @main. It is entered holding every unscoped buffer at `W0 m` and left holding them
    at `W1 m ρ`. At entry the region's arrays are taken out of the unscoped buffers and the others bypass the
    region; at exit the arrays come back at what the pipeline left and, with the bypassing buffers, make up the
    unscoped buffers at the new contents. The generator register goes into the region invariant and comes back;
    the core owes nothing before or after; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    -- the register and the scoped rest are the class invariant; no table is prefetched
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m c) (V1 m ρ c) ((pdats m ρ 0 c).arrAt · cfg0.N) (hF0 m ρ c) (hrest0 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

-- the library's lemmas are stated over the pinned configuration `pin pcs a p`; applying them at pipeline 1 needs
-- unification to unfold definitions inside a metavariable's type
set_option backward.isDefEq.respectTransparency.types false in
/-- REGION 1 as a piece of @main. It is entered holding every unscoped buffer at `W2 m ρ` and left holding them
    at `W3 m ρ`. At entry the region's arrays are taken out of the unscoped buffers and the others bypass the
    region; at exit the arrays come back at what the pipeline left and, with the bypassing buffers, make up the
    unscoped buffers at the new contents. The generator register goes into the region invariant and comes back;
    the core owes nothing before or after; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    -- the register and the scoped rest make the resting invariant, which is the invariant before the first point
    rw [show (pdats m ρ 1 c).Φ 0 = (dat1 (V2 m ρ) c).Φ 0 from rfl]
    refine BIBase.Entails.trans ?_ (hin1 (V2 m ρ) c)
    unfold Pipeline.ΦA
    iintro ⟨Hreg, -, Hsc⟩
    isplitl [Hsc]; · iexact Hsc
    iexact Hreg
  hout c := by
    -- after the last point the invariant gives the resting invariant back, which splits as before
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

-- the library's lemmas are stated over the pinned configuration `pin pcs a p`; applying them at pipeline 2 needs
-- unification to unfold definitions inside a metavariable's type
set_option backward.isDefEq.respectTransparency.types false in
/-- REGION 2 as a piece of @main. It is entered holding every unscoped buffer at `W4 m ρ` and left holding them
    at `W5 m ρ`. At entry the region's arrays are taken out of the unscoped buffers and the others bypass the
    region; at exit the arrays come back at what the pipeline left and, with the bypassing buffers, make up the
    unscoped buffers at the new contents. The generator register goes into the region invariant and comes back;
    the core owes nothing before or after; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    -- the register and the scoped rest are the class invariant; no table is prefetched
    rw [show (pdats m ρ 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m ρ 2 c).Φ (Fin.last _) = Pipeline.ΦA spec2 c from rfl]; unfold Pipeline.ΦA
    iintro ⟨Hsc, Hreg⟩
    isplitl [Hreg]; · iexact Hreg
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩; iexists W; iexact Howes

/-! ## @main as its five pieces, and the launch -/

/-- @main in order: region 0, the reshapes from region 0's exit contents, region 1, the slices and reshapes from region
    1's exit contents, region 2. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
/-- @main is the run of those pieces: it is the chain of its five items, and so is the pieces' run. -/
theorem main_run (c : Dev nD) : main (F := F) c = Pipeline.Seg.run (segs m ρ) := (main_chain c).trans (by chain_rfl)

-- the launch theorem's implicit arguments are found by unifying its conclusion with ours, which needs unification to
-- unfold definitions inside a metavariable's type
set_option backward.isDefEq.respectTransparency.types false in
/-- THE RUN. From any memory `m` with every semaphore at zero and any generator registers, every weakly fair
    execution of @main terminates without fault, and in every final state each unscoped buffer of each core holds the
    last contents `W5`. The pieces chain because each is left at exactly the contents the next is entered with; the
    first thread state is what the launch deals a core; the last is read against the final state. -/
theorem run : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun s h c => h c)

/-- THE FRAME, at any `F`: @main terminates without fault and every argument array ends holding what it held at the
    launch. Each argument is an unscoped buffer, so the run gives its final contents as `W5` there, which walks back
    to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

/-- info: 'Cert.Kernel.Hand.frame' depends on axioms: [propext, Classical.choice, Quot.sound] -/
#guard_msgs in #print axioms frame

end Cert.Kernel.Hand

end
-- ==== Proof.KI.R0.lean ====
import proofs.«425447_j55594056679593_3_alg».proof.Proof.Gen.KernelIdeal.Launch
import proofs.«425447_j55594056679593_3_alg».proof.Proof.Gen.KernelIdeal.Skeleton
import proofs.«425447_j55594056679593_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main, at the contents the region is entered with

Everything here is stated at a parameter `V`: what each buffer of the core holds when the region
begins. From `V` we read each window's block, say what the body leaves in the output window's
buffer, prove the body's triple, and package the pipeline's proof data with its body obligation. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## The windows' blocks -/

/-- The block of window `w` at grid point `t`: the slice of the window's array, as `V` gives it, that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds the window's block at every point, for any proof data whose
    array is `V`'s and whose body leaves that buffer alone: the window is whole, never idle, and nothing
    between two fetches writes it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- All of a 10000 × 128 buffer. -/
abbrev r0_0 : Rect S10000x128 := Rect.unit (s := S10000x128) ![0, 0] S10000x128.size inb_S10000x128_S10000x128_0_0
/-- All of a 128 × 128 buffer. -/
abbrev r0_1 : Rect S128x128 := Rect.unit (s := S128x128) ![0, 0] S128x128.size inb_S128x128_S128x128_0_0

/-! ## What the body leaves in the output window's buffer -/

/-- The output buffer after the body, as a function of the two input blocks: a single store of the
    product payload over the whole buffer. -/
def out0_2 (x0 : Vec F S10000x128 .f32) (x1 : Vec F S128x128 .f32) : Vec F S10000x128 .f32 :=
  View.canon [⟨r0_0, k0_pay1 (View.ld x0 r0_0) (View.ld x1 r0_1)⟩]

/-- That one store reaches every index of the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- Given the two input buffers at `x0`, `x1` and the output buffer at any contents, the body runs to a
    state with the inputs unchanged and the output at `out0_2 x0 x1`. The body reads the output buffer
    once before overwriting it; what it reads there is discarded, so any contents will do. -/
theorem sound_kernel0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Proof data for the pipeline on core `c`: the arrays are `V`'s; after the body at point `t` each input's
    buffer still holds its block and the output's holds `out0_2` of the two input blocks; the invariant
    is the one that leaves the scoped rest and the generator register untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Before the body each input's current buffer holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What holds when the body is called at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what the core owes are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«425447_j55594056679593_3_alg».proof.Proof.Gen.KernelIdeal.Launch
import proofs.«425447_j55594056679593_3_alg».proof.Proof.Gen.KernelIdeal.Skeleton
import proofs.«425447_j55594056679593_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # Region 1 of @main: what its two cases share

Region 1 walks a 2 × 1250 grid. Point `t` has coordinates `(t / 1250, t % 1250)`. At the first point of
each row (`t % 1250 = 0`) the body zeroes its output block and fills the scratch from window 0; at every
point it then adds one tile's contribution to the output block. Everything is stated at a parameter `V`:
what each buffer of the core holds when the region begins. This file fixes the windows' blocks, the body's
one branch condition in closed form, the staging memrefs as the pipeline passes them, and the region
invariant with the scratch named as a memref. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## The windows' blocks -/

/-- The block of window `w` at grid point `t`: the slice of the window's array, as `V` gives it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds the window's block at every point — although it is fetched at the first point only, its block index never moves —, for any proof data whose array is `V`'s and whose body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for input window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the second coordinate is zero. -/
abbrev cond1_0 (i : grid1.Coords) : Prop := (Scalar.cmpi .ne (Scalar.extui (Scalar.cmpi .eq (BitVec.ofNat 32 (i 1).val) 0#32)) 0#32) = 1#1

/-- It holds exactly at the first point of each row of the grid. -/
theorem hcond1_0 : ∀ t : Fin cfg1.N, cond1_0 (grid1.coords t) ↔ t.val % 1250 = 0 :=
  (by decide +kernel : ∀ t : Fin grid1.N, cond1_0 (grid1.coords t) ↔ t.val % 1250 = 0)

/-! ## The staging memrefs and the scratch -/

/-- One staging buffer of the output window, through which its contents are stated. -/
abbrev VO1_4 : View sig .tc .vmem S1x10000x128 .f32 := (Memref.whole cc1_stg4_0 : Memref sig .tc .vmem S1x10000x128 .f32).view

/-- Each window's current staging memref at point `t`, as the pipeline passes it to the body, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10000x128 .f32 := win1_4.stage (cfg1.slots t 4)
abbrev hs1_4 (t : Fin cfg1.N) : (ms1_4 t).IsWhole := hstage1_4 ((cfg1.slots t 4).cast nbuf1_4)

/-- The scratch operand: a whole scoped buffer of the kernel's own, passed beside the windows. -/
abbrev scM1_0 : Memref sig .tc .vmem S10000x128 .bf16 := Memref.whole cc1_scratch0
/-- The same as a view: what the scratch holds between points is stated through it. -/
abbrev VS1_0 : View sig .tc .vmem S10000x128 .bf16 := scM1_0.view

/-- The core's scoped buffers that are no staging buffer of region 1 — the other two regions' staging buffers, each
    whole at some contents, and the scratch —, with the scratch's place held by `P`. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ P ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- The region's resting invariant with the scratch singled out as a memref owned at some contents: what the
    body obligation hands the body and takes back. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.KernelIdeal.Hand

end
-- ==== Proof.KI.R1RunA.lean ====
import proofs.«425447_j55594056679593_3_alg».proof.Proof.KI.R1Runs

/-! # Region 1, the body's run at the first point of a row

At a point whose second coordinate is zero the body takes its branch: it zeroes the output block, fills the
scratch from window 0's block, and then — as at every point — adds one tile's contribution to the output
block. The run is found by executing the body's skeleton; the pieces each buffer ends with are its witness. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- What the body's stores leave in the output's staging memref and in the scratch, as pieces (last first), at a
    point where the branch is taken, WITH the proof that on whole memrefs — the four inputs' at their contents,
    the output's and the scratch's at anything — the body runs to the continuation holding the inputs' as they
    were and the output's and the scratch's with their pieces written. -/
noncomputable def kernelRun1_A (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) :
    Σ' (L4 : List (View.Piece (Elt F) S1x10000x128 .f32)), { LS0 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gather_scatter_kernel i arg2 harg2 arg3 harg3 arg4 harg4 arg5 harg5 arg6 harg6 arg7 harg7) K } := by
  refine ⟨?_, ?_, fun E K => ?run⟩
  case run =>
    simp only [cc1__gather_scatter_kernel_eq_skeleton]; unfold cc1__gather_scatter_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.KI.R1RunB.lean ====
import proofs.«425447_j55594056679593_3_alg».proof.Proof.KI.R1RunA

/-! # Region 1, the body's run at a later point of a row

At a point whose second coordinate is not zero the body skips its branch: it reads the scratch, which it does
not store into, and adds one tile's contribution to the output block it finds, which the point before left. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- What the body's store leaves in the output's staging memref, as pieces, at a point where the branch is not
    taken, WITH the proof that on whole memrefs — the four inputs' at their contents, the output's at its running
    contents `xo4`, the scratch's at its contents `xs0` — the body runs to the continuation holding the inputs'
    and the scratch's as they were and the output's with its pieces written. -/
noncomputable def kernelRun1_B (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) :
    { L4 : List (View.Piece (Elt F) S1x10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1__gather_scatter_kernel i arg2 harg2 arg3 harg3 arg4 harg4 arg5 harg5 arg6 harg6 arg7 harg7) K } := by
  refine ⟨?_, fun E K => ?run⟩
  case run =>
    simp only [cc1__gather_scatter_kernel_eq_skeleton]; unfold cc1__gather_scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

end Cert.KernelIdeal.Hand

end
-- ==== Proof.KI.R1.lean ====
import proofs.«425447_j55594056679593_3_alg».proof.Proof.KI.R1RunB

/-! # Region 1 of @main: the proof data and the body obligation

What the output block and the scratch hold after each point of the grid, by recursion on the point: at the first
point of a row what that case's run leaves; at a later point what that case's run leaves over what the point
before left. From these the pipeline's proof data, the body obligation at every point, and the passage between
the region's resting invariant and the invariant carried between points. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## What each case leaves -/

/-- At the first point of a row the body's two stores into the output block each tile it, so the pieces cover it. -/
theorem cover1_A_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) (y : S1x10000x128.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x10000x128.size (by sl_kernel_rfl) y

/-- What the first point of a row leaves in the output's staging buffer: its pieces read back over junk. -/
def out1_A_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) : Vec F S1x10000x128 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- At the first point of a row the body's one store into the scratch tiles it, so the pieces cover it. -/
theorem scover1_A_0 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) (y : S10000x128.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S10000x128.size (by sl_kernel_rfl) y

/-- What the first point of a row leaves in the scratch: its pieces read back over junk. -/
def sout1_A_0 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) : Vec F S10000x128 .bf16 :=
  VS1_0.read (Elt F) (VS1_0.writes (Elt F) VS1_0.junk (kernelRun1_A c i arg2 harg2 arg3 harg3 arg4 harg4 arg5 harg5 arg6 harg6 arg7 harg7 hc0 x0 x1 x2 x3).2.1)

/-- At a later point of a row the body's one store into the output block tiles it, so the piece covers it. -/
theorem cover1_B_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) (y : S1x10000x128.Idx) :
    ∃ pc ∈ (kernelRun1_B c i arg2 harg2 arg3 harg3 arg4 harg4 arg5 harg5 arg6 harg6 arg7 harg7 hc0 x0 x1 x2 x3 xo4 xs0).1, y ∈ pc.1.set :=
  View.cover_of_tiledL (kernelRun1_B c i arg2 harg2 arg3 harg3 arg4 harg4 arg5 harg5 arg6 harg6 arg7 harg7 hc0 x0 x1 x2 x3 xo4 xs0).1 S1x10000x128.size (by sl_kernel_rfl) y

/-- What a later point of a row leaves in the output's staging buffer: its piece read back over junk. -/
def out1_B_4 (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) : Vec F S1x10000x128 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xs0).1)

/-! ## What the output block and the scratch hold after each point -/

/-- The accumulation. After the body at position `n`, the output's staging buffer and the scratch (a pair, in that
    order): at the first point of a row, what that case leaves at the point's memrefs and input blocks; at a later point,
    what that case leaves over the pair at `n - 1` — the output block accumulated, the scratch unchanged. -/
def outsAt1 (c : Dev nD) : (n : ℕ) → n < cfg1.N → Vec F S1x10000x128 .f32 × Vec F S10000x128 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 1250 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, (outsAt1 c n (Nat.lt_of_succ_lt hn)).2)

/-- `outsAt1` at the first point of a row. -/
theorem outsAt1_A (c : Dev nD) (t : Fin cfg1.N) (h0 : t.val % 1250 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a later point of a row: over what the point before left. -/
theorem outsAt1_B (c : Dev nD) (t : Fin cfg1.N) (h0 : ¬t.val % 1250 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant carried between points -/

/-- The region invariant before position `n`: before the first point the region's resting invariant (the scratch at
    anything); afterwards the same with the scratch at what the point before left in it. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- Proof data for the pipeline on core `c`: the arrays are `V`'s; after the body at point `t` each input's buffer
    still holds its block and the output's holds `outsAt1`'s first component; the invariant is `PhiS1`; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Before the body each input's current buffer holds its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point of a row the output's staging buffer holds what the body left at the point before: the point is
    not the first, and the block is written back only at the last point of a row, which the point before is not. -/
theorem before1_4_B (c : Dev nD) (t : Fin cfg1.N) (h0 : ¬t.val % 1250 = 0) (d) :
    (dat1 V c).before 4 t d = (outsAt1 V c (t.val - 1) (Nat.lt_of_le_of_lt (Nat.sub_le _ _) t.isLt)).1 := by
  have hN : t.val < 2500 := lt_of_lt_of_eq t.isLt (show cfg1.N = 2500 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What holds when the body is called at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what holds when it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' buffers hold their blocks. At the first point of a row the run of that case
    applies with the output's buffer and the scratch at anything — the invariant hands the scratch over at anything
    at the grid's first point and at what the point before left otherwise — and takes the scratch back at what the
    case's pieces cover it with. At a later point the output's buffer holds what the point before left, the
    invariant hands the scratch over at what the point before left, and takes it back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 2500 := lt_of_lt_of_eq t.isLt (show cfg1.N = 2500 from N_1)
  by_cases h0 : t.val % 1250 = 0
  · rw [outsAt1_A V c t h0]
    unfold out1_A_4 sout1_A_0; (try dsimp only)
    by_cases hz : t.val = 0
    ·
      rw [PhiS1_castSucc V c t, PhiS1_zero V c _ _ hz, PhiA1_eq]
      unfold scoped1
      iintro ⟨⟨⟨R0, R1, R2, HS0, R4, R5, R6, R7⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R0 R1 R2 HS0 R4 R5 R6 R7 Hg]
      · isplitr [Hg]
        · isplitl [R0]; · iexact R0
          isplitl [R1]; · iexact R1
          isplitl [R2]; · iexact R2
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [R4]; · iexact R4
          isplitl [R5]; · iexact R5
          isplitl [R6]; · iexact R6
          iexact R7
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    ·
      rw [PhiS1_castSucc V c t, PhiS1_pos V c _ _ hz]
      unfold scoped1
      iintro ⟨⟨⟨R0, R1, R2, HS0, R4, R5, R6, R7⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [R0 R1 R2 HS0 R4 R5 R6 R7 Hg]
      · isplitr [Hg]
        · isplitl [R0]; · iexact R0
          isplitl [R1]; · iexact R1
          isplitl [R2]; · iexact R2
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [R4]; · iexact R4
          isplitl [R5]; · iexact R5
          isplitl [R6]; · iexact R6
          iexact R7
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    simp only [before1_4_B V c t h0]
    unfold out1_B_4; (try dsimp only)
    by_cases hz : t.val = 0
    · exfalso; rw [hz] at h0; exact h0 (Nat.zero_mod _)
    · rw [PhiS1_castSucc V c t, PhiS1_pos V c _ _ hz]
      unfold scoped1
      iintro ⟨⟨⟨R0, R1, R2, HS0, R4, R5, R6, R7⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, ⟨%e4, H4⟩, HS0⟩
      isplitl [R0 R1 R2 HS0 R4 R5 R6 R7 Hg]
      · isplitr [Hg]
        · isplitl [R0]; · iexact R0
          isplitl [R1]; · iexact R1
          isplitl [R2]; · iexact R2
          isplitl [HS0]
          · iexact HS0
          isplitl [R4]; · iexact R4
          isplitl [R5]; · iexact R5
          isplitl [R6]; · iexact R6
          iexact R7
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _ _)

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

/-! ## In and out of the region -/

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨R0, R1, R2, HS0, R4, R5, R6, R7⟩, Hg⟩
  isplitr [Hg]
  · isplitl [R0]; · iexact R0
    isplitl [R1]; · iexact R1
    isplitl [R2]; · iexact R2
    isplitl [HS0]; · iexists _; iexact HS0
    isplitl [R4]; · iexact R4
    isplitl [R5]; · iexact R5
    isplitl [R6]; · iexact R6
    iexact R7
  iexact Hg

/-- The same after the last point. -/
theorem hout1 (c : Dev nD) : (dat1 V c).Φ (Fin.last cfg1.N) ⊢ Pipeline.ΦA spec1 c :=
  Phi_out1 V c _ (by rw [Fin.val_last]; have : cfg1.N = 2500 := N_1; omega)

end Cert.KernelIdeal.Hand

end
-- ==== Proof.KI.R2.lean ====
import proofs.«425447_j55594056679593_3_alg».proof.Proof.Gen.KernelIdeal.Launch
import proofs.«425447_j55594056679593_3_alg».proof.Proof.Gen.KernelIdeal.Skeleton
import proofs.«425447_j55594056679593_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main, at the contents the region is entered with

Everything here is stated at a parameter `V`: what each buffer of the core holds when the region
begins. From `V` we read each window's block, say what the body leaves in the output window's
buffer, prove the body's triple, and package the pipeline's proof data with its body obligation. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## The windows' blocks -/

/-- The block of window `w` at grid point `t`: the slice of the window's array, as `V` gives it, that
    the window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of input window 0 holds the window's block at every point, for any proof data whose
    array is `V`'s and whose body leaves that buffer alone: the window is whole, never idle, and nothing
    between two fetches writes it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- and for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangle the body reads and writes -/

/-- All of a 10000 × 128 buffer: every load and the one store of the body use it. -/
abbrev r2_0 : Rect S10000x128 := Rect.unit (s := S10000x128) ![0, 0] S10000x128.size inb_S10000x128_S10000x128_0_0

/-! ## What the body leaves in the output window's buffer -/

/-- The output buffer after the body, as a function of the three input blocks: a single store of the
    sum payload over the whole buffer. -/
def out2_3 (x0 x1 x2 : Vec F S10000x128 .f32) : Vec F S10000x128 .f32 :=
  View.canon [⟨r2_0, k2_pay1 (View.ld x0 r2_0) (View.ld x1 r2_0) (View.ld x2 r2_0)⟩]

/-- That one store reaches every index of the buffer. -/
theorem cover2_3 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- Given the three input buffers at `x0`, `x1`, `x2` and the output buffer at any contents, the body runs
    to a state with the inputs unchanged and the output at `out2_3 x0 x1 x2`. The body reads the output
    buffer once before overwriting it; what it reads there is discarded, so any contents will do. -/
theorem sound_kernel2 (c : Dev nD) (E : Set ℕ) (i : grid2.Coords)
    (arg1 : Memref sig .tc .vmem S10000x128 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S10000x128 .f32) (harg4 : arg4.IsWhole)
    (x0 x1 x2 : Vec F S10000x128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Proof data for the pipeline on core `c`: the arrays are `V`'s; after the body at point `t` each input's
    buffer still holds its block and the output's holds `out2_3` of the three input blocks; the invariant
    is the one that leaves the scoped rest and the generator register untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Before the body each input's current buffer holds its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What holds when the body is called at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant
    and what the core owes are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«425447_j55594056679593_3_alg».proof.Proof.KI.R0
import proofs.«425447_j55594056679593_3_alg».proof.Proof.KI.R1
import proofs.«425447_j55594056679593_3_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its three kernel regions

@main is: region 0; three reshapes; region 1; two slices, each followed by a reshape; region 2. Nothing runs
before region 0. We follow the contents of every unscoped buffer of a core from the launch to the return: a
host stretch rewrites the buffers its operations write, a region rewrites its windows' arrays with what its
pipeline leaves there. Each region is then entered from "every unscoped buffer at the contents reached so far"
and left at the next contents, and the five pieces chain from the launch memory to the last contents. Reading
the last contents back gives, for every argument, what the launch memory held, and for the result, what
region 2's pipeline leaves in its output array. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents of a core's buffers at each boundary of @main -/

/-- At the launch: what the memory holds on core `c`. -/
abbrev W0 (c : Dev nD) : Valuation τ sig (Elt F) := fun b => m (c, b)
/-- The same, read at the core's own references: what region 0 is entered with. -/
abbrev V0 : (c : Dev nD) → (b : Ref sig .tc) → Buf (Elt F) ((c : Thread nD τ).loc b) := fun c b => W0 m c b

/-- After region 0: each of its three arrays at what the pipeline leaves in it (an input as it was, the output at
    its folded write-backs), every other buffer as at the launch. The generator registers `ρ` play no part in
    the contents; they are carried so that every later boundary is named by the same two arguments as the launch. -/
def W1 (ρ : Dev nD → PrngReg) (c : Dev nD) : Valuation τ sig (Elt F) :=
  Pipeline.withArrays spec0 c (W0 m c) fun w => (dat0 (V0 m) c).arrAt w cfg0.N

variable (ρ : Dev nD → PrngReg)

theorem W1_arr (c : Dev nD) (w : Fin cfg0.W) :
    W1 m ρ c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m c (Proc.devRef .tc b) := by
  unfold W1; exact Pipeline.withArrays_of_ne spec0 c _ _ b hb
/-- Region 0's exit contents at the core's own references. -/
abbrev V1 : (c : Dev nD) → (b : Ref sig .tc) → Buf (Elt F) ((c : Thread nD τ).loc b) := fun c b => W1 m ρ c b
/-- At region 0's exit its arrays hold what the pipeline leaves, -/
theorem hF0 (c : Dev nD) (w : Fin cfg0.W) : (dat0 (V0 m) c).arrAt w cfg0.N = V1 m ρ c (Pipeline.arrRef spec0 w) :=
  (W1_arr m ρ c w).symm
/-- and every other buffer what it held at entry. -/
theorem hrest0 (c : Dev nD) : ∀ b, b ∉ Finset.univ.image (Pipeline.arrRef spec0) → V1 m ρ c b = V0 m c b :=
  fun b hb => W1_of_ne m ρ c b fun w e => hb (Finset.mem_image.mpr ⟨w, Finset.mem_univ _, e⟩)

/-- After the three reshapes: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After region 1: its five arrays at what the pipeline leaves, every other buffer as at its entry. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two slices and their reshapes: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2, which is the end of @main: its four arrays at what the pipeline leaves, the rest as at its entry. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## What the host stretches leave alone -/

/-- The three reshapes write `main_v1`, `main_v2`, `main_v3`; any other buffer keeps its contents. -/
theorem hostOps1_keeps (V : Valuation τ sig (Elt F)) (r : Ref sig .tc)
    (h1 : r ≠ main_v1) (h2 : r ≠ main_v2) (h3 : r ≠ main_v3) :
    StableHlo.after hostOps1 V (Proc.devRef .tc r) = V (Proc.devRef .tc r) :=
  StableHlo.after_of_forall_not_mem (b := Proc.devRef .tc r) hostOps1 V (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3⟩))

/-- The slices and reshapes write `main_v5`, `main_v6`, `main_v7`, `main_v8`; any other buffer keeps its contents. -/
theorem hostOps2_keeps (V : Valuation τ sig (Elt F)) (r : Ref sig .tc)
    (h5 : r ≠ main_v5) (h6 : r ≠ main_v6) (h7 : r ≠ main_v7) (h8 : r ≠ main_v8) :
    StableHlo.after hostOps2 V (Proc.devRef .tc r) = V (Proc.devRef .tc r) :=
  StableHlo.after_of_forall_not_mem (b := Proc.devRef .tc r) hostOps2 V (List.forall_iff_forall_mem.mp (by
    simp only [hostOps2, List.Forall, StableHlo.reshape_writes, StableHlo.unary_writes, Finset.mem_singleton]
    exact ⟨StableHlo.devRef_ne_of_ne h5, StableHlo.devRef_ne_of_ne h6, StableHlo.devRef_ne_of_ne h7, StableHlo.devRef_ne_of_ne h8⟩))

/-! ## The arguments and the result, read off the last contents

An argument is written by nobody: region 2 and region 1 have no window on it, no host operation writes it, and
region 0 either reads it through an input window (whose array the pipeline leaves as it found it) or has no window
on it. So the last contents at an argument walk back, boundary by boundary, to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := hostOps2_keeps _ main_arg0 (by decide) (by decide) (by decide) (by decide)
    _ = W2 m ρ c (Proc.devRef .tc main_arg0) := W3_of_ne m ρ c main_arg0 (by decide)
    _ = W1 m ρ c (Proc.devRef .tc main_arg0) := hostOps1_keeps _ main_arg0 (by decide) (by decide) (by decide)
    _ = W0 m c (Proc.devRef .tc main_arg0) :=
        (W1_arr m ρ c 0).trans (((dat0 (V0 m) c).arrAt_in 0 rfl _).trans (A_eq0 (V0 m) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := hostOps2_keeps _ main_arg1 (by decide) (by decide) (by decide) (by decide)
    _ = W2 m ρ c (Proc.devRef .tc main_arg1) := W3_of_ne m ρ c main_arg1 (by decide)
    _ = W1 m ρ c (Proc.devRef .tc main_arg1) := hostOps1_keeps _ main_arg1 (by decide) (by decide) (by decide)
    _ = W0 m c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := hostOps2_keeps _ main_arg2 (by decide) (by decide) (by decide) (by decide)
    _ = W2 m ρ c (Proc.devRef .tc main_arg2) := W3_of_ne m ρ c main_arg2 (by decide)
    _ = W1 m ρ c (Proc.devRef .tc main_arg2) := hostOps1_keeps _ main_arg2 (by decide) (by decide) (by decide)
    _ = W0 m c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := hostOps2_keeps _ main_arg3 (by decide) (by decide) (by decide) (by decide)
    _ = W2 m ρ c (Proc.devRef .tc main_arg3) := W3_of_ne m ρ c main_arg3 (by decide)
    _ = W1 m ρ c (Proc.devRef .tc main_arg3) := hostOps1_keeps _ main_arg3 (by decide) (by decide) (by decide)
    _ = W0 m c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := hostOps2_keeps _ main_arg4 (by decide) (by decide) (by decide) (by decide)
    _ = W2 m ρ c (Proc.devRef .tc main_arg4) := W3_of_ne m ρ c main_arg4 (by decide)
    _ = W1 m ρ c (Proc.devRef .tc main_arg4) := hostOps1_keeps _ main_arg4 (by decide) (by decide) (by decide)
    _ = W0 m c (Proc.devRef .tc main_arg4) :=
        (W1_arr m ρ c 1).trans (((dat0 (V0 m) c).arrAt_in 1 rfl _).trans (A_eq0 (V0 m) c 1))
    _ = m ((c : Thread nD τ).loc main_arg4) := rfl

/-- The result is region 2's output array: the last contents there are what its pipeline leaves. -/
theorem W5_main_v9 (c : Dev nD) : W5 m ρ c (Proc.devRef .tc main_v9) = (dat2 (V4 m ρ) c).arrAt 3 cfg2.N :=
  W5_arr m ρ c 3

/-! ## The proof data of the three pipelines and the thread state between pieces -/

/-- No pipeline prefetches a table, so each has exactly one admissible table contents. -/
abbrev adm : (p : Fin 3) → (pcfgs (F := F) p).Adm := fun p => (cfgs p).toPCfg_adm
/-- Each pipeline's proof data, taken at the contents its region is entered with. Written as a match on the three
    indices so that at a numeral the pinned configuration reduces to the printed one. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m ρ) c
  | ⟨2, _⟩ => fun c => dat2 (V4 m ρ) c
abbrev 𝒱₀ : Variants := Variants.none
/-- No core ever owes another anything, so no level is assigned anywhere. -/
abbrev L : GSem nD τ sig → Finset Unit := fun _ => ∅
abbrev lv : GSem nD τ sig → Unit → ℕ := fun _ _ => 0
/-- What a core holds beside its unscoped buffers between two pieces: its generator register at some state, and the
    record that it owes nothing. -/
abbrev R (c : Dev nD) : sProp 𝕄 := iprop((∃ r, prngReg c r) ∗ ∃ W, owes (c : Thread nD τ) (0 : CellTallies nD τ sig Unit) W)
/-- A host stretch as a piece of @main: it runs over the unscoped buffers from contents `W` to those contents after
    its operations, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host stretch allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the record of owing nothing: every unscoped buffer at the last contents and the
    generator register at some state. -/
abbrev Tₙ (c : Dev nD) : sProp 𝕄 := iprop(StableHlo.held (c : Thread nD τ) (Pipeline.ucRefs τ sig) (W5 m ρ c) ∗ ∃ r, prngReg c r)

/-! ## The regions as pieces of @main -/

-- the library's lemmas are stated over the pinned configuration `pin pcs a p`; applying them at pipeline 0 needs
-- unification to unfold definitions inside a metavariable's type
set_option backward.isDefEq.respectTransparency.types false in
/-- REGION 0 as a piece of @main. It is entered holding every unscoped buffer at `W0 m` and left holding them
    at `W1 m ρ`. At entry the region's arrays are taken out of the unscoped buffers and the others bypass the
    region; at exit the arrays come back at what the pipeline left and, with the bypassing buffers, make up the
    unscoped buffers at the new contents. The generator register goes into the region invariant and comes back;
    the core owes nothing before or after; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    -- the register and the scoped rest are the class invariant; no table is prefetched
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m c) (V1 m ρ c) ((pdats m ρ 0 c).arrAt · cfg0.N) (hF0 m ρ c) (hrest0 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

-- the library's lemmas are stated over the pinned configuration `pin pcs a p`; applying them at pipeline 1 needs
-- unification to unfold definitions inside a metavariable's type
set_option backward.isDefEq.respectTransparency.types false in
/-- REGION 1 as a piece of @main. It is entered holding every unscoped buffer at `W2 m ρ` and left holding them
    at `W3 m ρ`. At entry the region's arrays are taken out of the unscoped buffers and the others bypass the
    region; at exit the arrays come back at what the pipeline left and, with the bypassing buffers, make up the
    unscoped buffers at the new contents. The generator register goes into the region invariant and comes back;
    the core owes nothing before or after; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    -- the register and the scoped rest make the resting invariant, which is the invariant before the first point
    rw [show (pdats m ρ 1 c).Φ 0 = (dat1 (V2 m ρ) c).Φ 0 from rfl]
    refine BIBase.Entails.trans ?_ (hin1 (V2 m ρ) c)
    unfold Pipeline.ΦA
    iintro ⟨Hreg, -, Hsc⟩
    isplitl [Hsc]; · iexact Hsc
    iexact Hreg
  hout c := by
    -- after the last point the invariant gives the resting invariant back, which splits as before
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

-- the library's lemmas are stated over the pinned configuration `pin pcs a p`; applying them at pipeline 2 needs
-- unification to unfold definitions inside a metavariable's type
set_option backward.isDefEq.respectTransparency.types false in
/-- REGION 2 as a piece of @main. It is entered holding every unscoped buffer at `W4 m ρ` and left holding them
    at `W5 m ρ`. At entry the region's arrays are taken out of the unscoped buffers and the others bypass the
    region; at exit the arrays come back at what the pipeline left and, with the bypassing buffers, make up the
    unscoped buffers at the new contents. The generator register goes into the region invariant and comes back;
    the core owes nothing before or after; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    -- the register and the scoped rest are the class invariant; no table is prefetched
    rw [show (pdats m ρ 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m ρ 2 c).Φ (Fin.last _) = Pipeline.ΦA spec2 c from rfl]; unfold Pipeline.ΦA
    iintro ⟨Hsc, Hreg⟩
    isplitl [Hreg]; · iexact Hreg
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩; iexists W; iexact Howes

/-! ## @main as its five pieces, and the launch -/

/-- @main in order: region 0, the reshapes from region 0's exit contents, region 1, the slices and reshapes from region
    1's exit contents, region 2. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
/-- @main is the run of those pieces: it is the chain of its five items, and so is the pieces' run. -/
theorem main_run (c : Dev nD) : main (F := F) c = Pipeline.Seg.run (segs m ρ) := (main_chain c).trans (by chain_rfl)

-- the launch theorem's implicit arguments are found by unifying its conclusion with ours, which needs unification to
-- unfold definitions inside a metavariable's type
set_option backward.isDefEq.respectTransparency.types false in
/-- THE RUN. From any memory `m` with every semaphore at zero and any generator registers, every weakly fair
    execution of @main terminates without fault, and in every final state each unscoped buffer of each core holds the
    last contents `W5`. The pieces chain because each is left at exactly the contents the next is entered with; the
    first thread state is what the launch deals a core; the last is read against the final state. -/
theorem run : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun s h c => h c)

/-- THE FRAME, at any `F`: @main terminates without fault and every argument array ends holding what it held at the
    launch. Each argument is an unscoped buffer, so the run gives its final contents as `W5` there, which walks back
    to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

/-- info: 'Cert.KernelIdeal.Hand.frame' depends on axioms: [propext, Classical.choice, Quot.sound] -/
#guard_msgs in #print axioms frame

end Cert.KernelIdeal.Hand

end
-- ==== Proof.Spec.lean ====
/-
  The two sides of the claim as plain functions on the extended reals.

  A graph layer: `h` holds one feature row per node, every edge `e` carries a weight `mask e`, a source node and a
  destination node (32-bit words), and `W` is a square matrix. One side projects first (`h · Wᵀ`), then for every
  edge takes the projected row of its source scaled by the edge weight and adds it to the row of its destination,
  the edges cut into two halves of 1250 tiles of 256 edges, each half summed tile after tile; the result is the
  projected features plus the two halves. The other side sums the scaled source rows per destination first, adds
  the features, and projects last. `kernelOut_eq_refOut` (proved in the module that imports this one) says they agree
  when every entry is a real number and every source word names a node.
-/
import Idealize.ShloMosaic.Lib.ValueIdx
import Idealize.ShloMosaic.PureOps.Ideal

noncomputable section

namespace GinSpec

open Idealize.ShloMosaic

/-- A matrix of extended reals by row and column. -/
abbrev Mat (a b : Nat) : Type := Fin a → Fin b → EReal

/-- The f32 word of 1.0 read as an extended real (the same word scales the features on both sides). -/
def c1 : EReal := Ideal.ofBits .f32 0x3F800000#32

/-- The projection `h · Wᵀ`: entry `(n, d)` is the sum over `k` of `h n k * W d k`. -/
def hwF (h : Mat 10000 128) (W : Mat 128 128) : Mat 10000 128 := fun n d => ∑ k : Fin 128, h n k * W d k

/-- A 32-bit word names node `n`: read as a signed integer it is `n`. -/
def hit (n : Fin 10000) (w : BitVec 32) : Prop := w.toInt = (n.val : ℤ)

instance (n : Fin 10000) (w : BitVec 32) : Decidable (hit n w) := inferInstanceAs (Decidable (w.toInt = (n.val : ℤ)))

/-- The edge that lane `l` of tile `t` of half `cc` holds. -/
def edge (cc : Fin 2) (t : Fin 1250) (l : Fin 256) : Fin 640000 :=
  ⟨(cc.val * 1250 + t.val) * 256 + l.val, by have := cc.isLt; have := t.isLt; have := l.isLt; omega⟩

/-- Edge `e`'s message, column `d`, as a product of a selection row with the feature rows: the row has the edge's weight
    at the node its source word names and zero elsewhere. -/
def msgK (x : Mat 10000 128) (mask : Fin 640000 → EReal) (src : Fin 640000 → BitVec 32) (e : Fin 640000) (d : Fin 128) : EReal :=
  ∑ n : Fin 10000, (if hit n (src e) then mask e else 0) * x n d

/-- What one tile of 256 edges adds to entry `(n, d)`: the messages of the edges whose destination word names `n`. -/
def tileK (x : Mat 10000 128) (mask : Fin 640000 → EReal) (src dst : Fin 640000 → BitVec 32) (cc : Fin 2) (t : Fin 1250)
    (n : Fin 10000) (d : Fin 128) : EReal :=
  ∑ l : Fin 256, (if hit n (dst (edge cc t l)) then (1 : EReal) else 0) * msgK x mask src (edge cc t l) d

/-- The running sum of half `cc` after its first `T` tiles, from zero, tile after tile. -/
def accK (x : Mat 10000 128) (mask : Fin 640000 → EReal) (src dst : Fin 640000 → BitVec 32) (cc : Fin 2) :
    ℕ → Mat 10000 128
  | 0 => fun _ _ => 0
  | T + 1 => fun n d => accK x mask src dst cc T n d + (if h : T < 1250 then tileK x mask src dst cc ⟨T, h⟩ n d else 0)

/-- Half `cc`'s sum over all its 1250 tiles. -/
def partK (x : Mat 10000 128) (mask : Fin 640000 → EReal) (src dst : Fin 640000 → BitVec 32) (cc : Fin 2) : Mat 10000 128 :=
  accK x mask src dst cc 1250

/-- The last step: the scaled features plus the two halves. -/
def outK (x p0 p1 : Mat 10000 128) : Mat 10000 128 := fun n d => c1 * x n d + p0 n d + p1 n d

/-- The first side whole: project, gather and scatter by selection rows, merge. -/
def kernelOut (h : Mat 10000 128) (mask : Fin 640000 → EReal) (src dst : Fin 640000 → BitVec 32) (W : Mat 128 128) : Mat 10000 128 :=
  outK (hwF h W) (partK (hwF h W) mask src dst 0) (partK (hwF h W) mask src dst 1)

/-- The second side: per destination the sum of the weighted source rows (`row e` the row edge `e` reads), plus the
    scaled features, projected last. -/
def refOut (h : Mat 10000 128) (mask : Fin 640000 → EReal) (row : Fin 640000 → Fin 10000) (dst : Fin 640000 → BitVec 32)
    (W : Mat 128 128) : Mat 10000 128 := fun n d =>
  ∑ k : Fin 128, (c1 * h n k + ∑ e ∈ Finset.univ.filter (fun e : Fin 640000 => hit n (dst e)), h (row e) k * mask e) * W d k

end GinSpec

end
-- ==== Proof.KVal0.lean ====
import proofs.«425447_j55594056679593_3_alg».proof.Proof.KI.R0
import proofs.«425447_j55594056679593_3_alg».proof.Proof.Spec
import Idealize.ShloMosaic.Lib.Pipeline.Value
import Idealize.ShloMosaic.Lib.ValueIdx
import Idealize.ShloMosaic.PureOps.Ideal.Laws

/-! # Region 0 read at an index: the projection `h · Wᵀ`

The region has one grid point and every window's block is its whole array. So the output array after the
region is the body's payload of the two input arrays. The payload narrows both operands (the identity on
extended reals) and multiplies them into a zero accumulator, contracting the second axis of each: entry
`(n, d)` is the sum over `k` of `h n k * W d k`. -/

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The product's operand indices, axis by axis

Both operands contract their second axis; the result's row is the left operand's row, the result's column
is the right operand's ROW. -/

theorem lhs_k0_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_k0_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_k0_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_k0_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-! ## The payload at an index -/

/-- Entry `(n, d)` of the payload: the sum over `k` of the left operand at `(n, k)` times the right at `(d, k)`. -/
theorem k0_pay1_apply (x0 : Vec Ideal S10000x128 .f32) (x1 : Vec Ideal S128x128 .f32) (n : Fin 10000) (d : Fin 128) :
    k0_pay1 (F := Ideal) x0 x1 (ix2 n d) = ∑ k : Fin 128, x0 (ix2 n k) * x1 (ix2 d k) := by
  unfold k0_pay1
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 n d) ((contrEquiv1 dot_S10000x128_S128x128_S10000x128_1_1_0_0_n_n 128 rfl rfl).symm k) = ix2 n k := funext fun a => Fin.ext (by
    match a with
    | ⟨0, _⟩ => exact lhs_k0_0 _ _
    | ⟨1, _⟩ => exact (lhs_k0_1 _ _).trans hk)
  have er : dot_S10000x128_S128x128_S10000x128_1_1_0_0_n_n.rhsIdx (ix2 n d) ((contrEquiv1 dot_S10000x128_S128x128_S10000x128_1_1_0_0_n_n 128 rfl rfl).symm k) = ix2 d k := funext fun a => Fin.ext (by
    match a with
    | ⟨0, _⟩ => exact rhs_k0_0 _ _
    | ⟨1, _⟩ => exact (rhs_k0_1 _ _).trans hk)
  rw [el, er]
  rfl

/-! ## One block is the whole array -/

section Blocks

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-- At the grid's one point every window's block index is zero on both axes. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Window 0's block is the array `main_arg0`. -/
theorem iblk0_0_eq (c : Dev nD) (t : Fin cfg0.N) : (iblk0 V c 0 t : S10000x128.Idx → Elt F .f32) = V c main_arg0 := by
  funext y
  show V c main_arg0 (((cfg0.win 0).blk t).view.emb y) = V c main_arg0 y
  refine congrArg _ (funext fun a => Fin.ext ?_)
  obtain ⟨e0, e1, -⟩ := idx0 t
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 1's block is the array `main_arg4`. -/
theorem iblk0_1_eq (c : Dev nD) (t : Fin cfg0.N) : (iblk0 V c 1 t : S128x128.Idx → Elt F .f32) = V c main_arg4 := by
  funext y
  show V c main_arg4 (((cfg0.win 1).blk t).view.emb y) = V c main_arg4 y
  refine congrArg _ (funext fun a => Fin.ext ?_)
  obtain ⟨-, -, e0, e1, -⟩ := idx0 t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the block, all of it, of the payload of the two input arrays. -/
theorem flushed0_eq (c : Dev nD) (t : Fin cfg0.N) :
    (dat0 V c).flushed 2 t = ((cfg0.win 2).blk t).view.read (Elt F) (k0_pay1 (V c main_arg0) (V c main_arg4)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x128) hz0]
  rw [iblk0_0_eq, iblk0_1_eq]
  funext y
  show k0_pay1 (V c main_arg0) (V c main_arg4) y = k0_pay1 (V c main_arg0) (V c main_arg4) (((cfg0.win 2).blk t).view.emb y)
  refine congrArg _ (funext fun a => Fin.ext ?_)
  obtain ⟨-, -, -, -, e0, e1⟩ := idx0 t
  match a with
  | ⟨0, _⟩ => show (y 0).val = win0_2.index t (0 : Fin 2) * 10000 + 1 * (y 0).val; omega
  | ⟨1, _⟩ => show (y 1).val = win0_2.index t (1 : Fin 2) * 128 + 1 * (y 1).val; omega

/-- An index of the array is in point `t`'s block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The one point's block covers the array. -/
theorem cover0 (i : S10000x128.Idx) : ∃ t : Fin cfg0.N, (cfg0.win 2).flush t = true ∧ i ∈ ((cfg0.win 2).blk t).view.set := by
  refine ⟨t0_0, flush0_2 t0_0, ?_⟩
  rw [mem_blk0]
  obtain ⟨-, -, -, -, e0, e1⟩ := idx0 t0_0
  have hi0 : (i 0).val < 10000 := (i 0).isLt
  have hi1 : (i 1).val < 128 := (i 1).isLt
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 128 ≤ (i 1).val ∧ (i 1).val < win0_2.index t0_0 (1 : Fin 2) * 128 + 128; omega

/-- The output array after the region is the payload of the two input arrays. -/
theorem arr0_eq (c : Dev nD) :
    (dat0 V c).arrAt 2 cfg0.N = (k0_pay1 (V c main_arg0) (V c main_arg4) : S10000x128.Idx → Elt F .f32) :=
  (dat0 V c).arrAt_eq_of_cover 2 _ (fun t _ => flushed0_eq V c t) cover0

end Blocks

/-! ## The array at an index -/

/-- Entry `(n, d)` of the output array is the projection of row `n` of `main_arg0` on row `d` of `main_arg4`. -/
theorem arr0 (V : (c : Dev nD) → (b : Ref sig .tc) → Buf (Elt Ideal) ((c : Thread nD τ).loc b)) (c : Dev nD) (n : Fin 10000) (d : Fin 128) :
    (dat0 (F := Ideal) V c).arrAt 2 cfg0.N (ix2 n d)
      = GinSpec.hwF (fun n k => V c main_arg0 (ix2 n k)) (fun a b => V c main_arg4 (ix2 a b)) n d := by
  refine (congrFun (arr0_eq V c) (ix2 n d)).trans ?_
  exact k0_pay1_apply (V c main_arg0) (V c main_arg4) n d

end Cert.KernelIdeal.Val

end
-- ==== Proof.KI.R1Val.lean ====
import proofs.«425447_j55594056679593_3_alg».proof.Proof.KI.R1
import Idealize.ShloMosaic.Lib.Pipeline.Value

/-! # Region 1: what each case's pieces are, as values

The runs of region 1's body found, per case, the list of pieces each buffer ends with. Each store of the body
covers its whole buffer through the zero offset, so what the pieces leave is the last store's payload, with each
load the payload reads resolved: a load of an input reads the input's block; a load of a buffer stored earlier
at the same point reads that store's payload back. -/

-- deciding that one rectangle fills a 10000 × 128 buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rank-2 zero offset, as a function. -/
theorem r1_off2 : (![0, 0] : Fin 2 → Nat) = fun _ => 0 := funext fun a => by fin_cases a <;> rfl
/-- A rank-3 zero offset, as a function. -/
theorem r1_off3 : (![0, 0, 0] : Fin 3 → Nat) = fun _ => 0 := funext fun a => by fin_cases a <;> rfl

/-- At the first point of a row the scratch is left holding window 0's block narrowed to the scratch's format. -/
theorem sout1_A_0_eq (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) :
    sout1_A_0 c i arg2 harg2 arg3 harg3 arg4 harg4 arg5 harg5 arg6 harg6 arg7 harg7 hc0 x0 x1 x2 x3 = k1_pay2 x0 := by
  unfold sout1_A_0
  rw [View.read_writes_eq_canon _ _ _ (scover1_A_0 c i arg2 harg2 arg3 harg3 arg4 harg4 arg5 harg5 arg6 harg6 arg7 harg7 hc0 x0 x1 x2 x3)]
  unfold kernelRun1_A
  dsimp only
  sl_unfold_words
  rw [View.canon_unit_zero r1_off2]
  simp only [View.readAt_eq_ld, harg2.read_unread, View.ld_unit_zero (S := S10000x128) r1_off2]

/-- At the first point of a row the output block is left holding one tile's contribution added to the zero block:
    the accumulating store's payload read the scratch just filled and the output block just zeroed. -/
theorem out1_A_4_eq (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : cond1_0 i)
    (x0 : Vec F S10000x128 .f32) (x1 : Vec F S1x256 .f32) (x2 : Vec F S1x256 .i32) (x3 : Vec F S1x256 .i32) :
    out1_A_4 c i arg2 harg2 arg3 harg3 arg4 harg4 arg5 harg5 arg6 harg6 arg7 harg7 hc0 x0 x1 x2 x3 = k1_pay3 x2 x3 x1 (k1_pay2 x0) (k1_pay1 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S1x10000x128) r1_off3]
  simp only [View.readAt_eq_ld, harg2.read_unread, harg3.read_unread, harg4.read_unread, harg5.read_unread,
    View.ld_unit_zero (S := S10000x128) r1_off2, View.ld_unit_zero (S := S1x256) r1_off2,
    View.readCov_unit_zero (S := S10000x128) _ r1_off2, View.readCov_unit_zero (S := S1x10000x128) _ r1_off3]

/-- At a later point of a row the output block is left holding one tile's contribution added to what it held,
    computed from the scratch as it was. -/
theorem out1_B_4_eq (c : Dev nD) (i : grid1.Coords) (arg2 : Memref sig .tc .vmem S10000x128 .f32) (harg2 : arg2.IsWhole) (arg3 : Memref sig .tc .vmem S1x256 .f32) (harg3 : arg3.IsWhole) (arg4 : Memref sig .tc .vmem S1x256 .i32) (harg4 : arg4.IsWhole) (arg5 : Memref sig .tc .vmem S1x256 .i32) (harg5 : arg5.IsWhole) (arg6 : Memref sig .tc .vmem S1x10000x128 .f32) (harg6 : arg6.IsWhole) (arg7 : Memref sig .tc .vmem S10000x128 .bf16) (harg7 : arg7.IsWhole) (hc0 : ¬cond1_0 i)
    (x0 : Vec F S10000x128 .f32) (x1 : Vec F S1x256 .f32) (x2 : Vec F S1x256 .i32) (x3 : Vec F S1x256 .i32) (xo4 : Vec F S1x10000x128 .f32) (xs0 : Vec F S10000x128 .bf16) :
    out1_B_4 c i arg2 harg2 arg3 harg3 arg4 harg4 arg5 harg5 arg6 harg6 arg7 harg7 hc0 x0 x1 x2 x3 xo4 xs0 = k1_pay3 x2 x3 x1 xs0 xo4 := by
  unfold out1_B_4
  rw [View.read_writes_eq_canon _ _ _ (cover1_B_4 c i arg2 harg2 arg3 harg3 arg4 harg4 arg5 harg5 arg6 harg6 arg7 harg7 hc0 x0 x1 x2 x3 xo4 xs0)]
  unfold kernelRun1_B
  dsimp only
  sl_unfold_words
  rw [View.canon_unit_zero r1_off3]
  simp only [View.readAt_eq_ld, harg3.read_unread, harg4.read_unread, harg5.read_unread, harg6.read_unread, harg7.read_unread,
    View.ld_unit_zero (S := S1x256) r1_off2, View.ld_unit_zero (S := S10000x128) r1_off2, View.ld_unit_zero (S := S1x10000x128) r1_off3]

end Cert.KernelIdeal.Hand

end
-- ==== Proof.KVal1Pay.lean ====
/-
  The payloads of the gather-and-scatter region read at an index, on the extended reals.

  The region's body computes three values: a block of zeros; the feature rows as it finds them (the narrowing to the
  short format is the identity on extended reals); and, per tile of 256 edges, the running block plus the product of a
  selection matrix for the destinations (row n, lane l: 1 when the destination word of lane l names n) with the
  messages of the tile, themselves the product of the weighted selection matrix for the sources (row n', lane l: the
  weight of lane l when its source word names n') with the feature rows, contracted over the nodes.
-/
import proofs.«425447_j55594056679593_3_alg».proof.Proof.Gen.KernelIdeal.Skeleton
import proofs.«425447_j55594056679593_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx Idealize.SL.Sem

/-! ## Words -/

/-- For a node number below 10000, its 32-bit word equals a word exactly when that word, read signed, is the number. -/
theorem word_eq_iff_hit (n : Fin 10000) (w : BitVec 32) : BitVec.ofNat 32 n.val = w ↔ GinSpec.hit n w := by
  unfold GinSpec.hit
  have hn := n.isLt
  have hw := w.isLt
  rw [BitVec.toInt_eq_toNat_cond]
  constructor
  · rintro rfl
    rw [BitVec.toNat_ofNat, Nat.mod_eq_of_lt (by omega)]
    split <;> omega
  · intro h
    apply BitVec.eq_of_toNat_eq
    rw [BitVec.toNat_ofNat, Nat.mod_eq_of_lt (by omega)]
    split at h <;> omega

/-- The comparison bit of a node's word with a word is set exactly when the word names the node. -/
theorem cmpi_eq_one_iff (n : Fin 10000) (w : BitVec 32) : IntOp.cmpi .eq (BitVec.ofNat 32 n.val) w = 1#1 ↔ GinSpec.hit n w := by
  rw [← word_eq_iff_hit]
  show BitVec.ofBool (BitVec.ofNat 32 n.val == w) = 1#1 ↔ _
  by_cases h : BitVec.ofNat 32 n.val = w
  · rw [beq_iff_eq.2 h]; exact ⟨fun _ => h, fun _ => rfl⟩
  · rw [beq_eq_false_iff_ne.2 h]; exact ⟨fun h1 => absurd h1 (by decide), fun h2 => absurd h2 h⟩

/-- A select on that comparison bit is the choice on "the word names the node". -/
theorem select_cmpi {α : Type} (n : Fin 10000) (w : BitVec 32) (a b : α) :
    Scalar.select (IntOp.cmpi .eq (BitVec.ofNat 32 n.val) w) a b = if GinSpec.hit n w then a else b := by
  by_cases h : GinSpec.hit n w
  · rw [if_pos h, (cmpi_eq_one_iff n w).2 h, select_one]
  · rw [if_neg h, eq_zero_of_ne_one (fun h1 => h ((cmpi_eq_one_iff n w).1 h1)), select_zero]

/-- The comparison bit, widened to a word and read as a number, is 1 or 0. -/
theorem sitofp_cmpi (n : Fin 10000) (w : BitVec 32) :
    (FloatOps.sitofp (F := Ideal) .f32 ((IntOp.cmpi .eq (BitVec.ofNat 32 n.val) w).setWidth 32) : EReal)
      = if GinSpec.hit n w then (1 : EReal) else 0 := by
  by_cases h : GinSpec.hit n w
  · rw [if_pos h, (cmpi_eq_one_iff n w).2 h]
    show (((((1#1 : BitVec 1).setWidth 32).toInt : ℤ) : ℝ) : EReal) = 1
    have : ((1#1 : BitVec 1).setWidth 32).toInt = 1 := by decide
    rw [this]; norm_num
  · rw [if_neg h, eq_zero_of_ne_one (fun h1 => h ((cmpi_eq_one_iff n w).1 h1))]
    show (((((0#1 : BitVec 1).setWidth 32).toInt : ℤ) : ℝ) : EReal) = 0
    have : ((0#1 : BitVec 1).setWidth 32).toInt = 0 := by decide
    rw [this]; norm_num

/-! ## A column broadcast over many columns -/

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The node numbers down a column, spread over the lanes: row n holds the word of n. -/
theorem nodeIds_apply (n : Fin 10000) (l : Fin 256) :
    broadcastTo S10000x256 (iota .tc S10000x1 32 [0] iota_S10000x1_d0_w32) broadcasts_S10000x1_S10000x256 (ix2 n l)
      = BitVec.ofNat 32 n.val := by
  refine (broadcastTo_a1_ab_apply _ broadcasts_S10000x1_S10000x256 n l).trans ?_
  exact iota_single_apply .tc S10000x1 32 0 iota_S10000x1_d0_w32 (ix2 n (0 : Fin 1))

/-! ## The two products read at an index -/

theorem lhs_mm1_0 (i : S256x128.Idx) (q : dot_S10000x256_S10000x128_S256x128_0_0_1_1_n_n.contr.Idx) :
    (dot_S10000x256_S10000x128_S256x128_0_0_1_1_n_n.lhsIdx i q 0).val = (q ⟨0, by decide⟩).val :=
  dot_S10000x256_S10000x128_S256x128_0_0_1_1_n_n.lhsIdx_val_of_single rfl i q
theorem lhs_mm1_1 (i : S256x128.Idx) (q : dot_S10000x256_S10000x128_S256x128_0_0_1_1_n_n.contr.Idx) :
    (dot_S10000x256_S10000x128_S256x128_0_0_1_1_n_n.lhsIdx i q 1).val = (i 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
theorem rhs_mm1_0 (i : S256x128.Idx) (q : dot_S10000x256_S10000x128_S256x128_0_0_1_1_n_n.contr.Idx) :
    (dot_S10000x256_S10000x128_S256x128_0_0_1_1_n_n.rhsIdx i q 0).val = (q ⟨0, by decide⟩).val :=
  dot_S10000x256_S10000x128_S256x128_0_0_1_1_n_n.rhsIdx_val_of_single rfl i q
theorem rhs_mm1_1 (i : S256x128.Idx) (q : dot_S10000x256_S10000x128_S256x128_0_0_1_1_n_n.contr.Idx) :
    (dot_S10000x256_S10000x128_S256x128_0_0_1_1_n_n.rhsIdx i q 1).val = (i 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

/-- The first product, into zeros, contracts the node axis of both operands: entry (l, d) is the sum over the nodes k of
    the left operand at (k, l) times the right at (k, d). -/
theorem mm1_apply (A : FVec Ideal S10000x256 .bf16) (B : FVec Ideal S10000x128 .bf16) (l : Fin 256) (d : Fin 128) :
    matmul dot_S10000x256_S10000x128_S256x128_0_0_1_1_n_n none A B (constant (F := Ideal) S256x128 .f32 0x00000000#32) (ix2 l d)
      = ∑ k : Fin 10000, A (ix2 k l) * B (ix2 k d) := by
  simp only [matmul]
  rw [Ideal.matmul_constant_zero_apply, ← Equiv.sum_comp (contrEquiv1 dot_S10000x256_S10000x128_S256x128_0_0_1_1_n_n 10000 rfl rfl).symm]
  refine Finset.sum_congr rfl fun k _ => ?_
  have hk := contrEquiv1_symm_val dot_S10000x256_S10000x128_S256x128_0_0_1_1_n_n 10000 rfl rfl k
  have el : dot_S10000x256_S10000x128_S256x128_0_0_1_1_n_n.lhsIdx (ix2 l d) ((contrEquiv1 dot_S10000x256_S10000x128_S256x128_0_0_1_1_n_n 10000 rfl rfl).symm k) = ix2 k l := funext fun a => Fin.ext (by
    match a with
    | ⟨0, _⟩ => exact (lhs_mm1_0 _ _).trans hk
    | ⟨1, _⟩ => exact lhs_mm1_1 _ _)
  have er : dot_S10000x256_S10000x128_S256x128_0_0_1_1_n_n.rhsIdx (ix2 l d) ((contrEquiv1 dot_S10000x256_S10000x128_S256x128_0_0_1_1_n_n 10000 rfl rfl).symm k) = ix2 k d := funext fun a => Fin.ext (by
    match a with
    | ⟨0, _⟩ => exact (rhs_mm1_0 _ _).trans hk
    | ⟨1, _⟩ => exact rhs_mm1_1 _ _)
  rw [el, er]

theorem lhs_mm2_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_mm2_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_mm2_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_mm2_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The second product, into zeros, is a plain one: entry (n, d) is the sum over the lanes l of the left operand at
    (n, l) times the right at (l, d). -/
theorem mm2_apply (A : FVec Ideal S10000x256 .bf16) (B : FVec Ideal S256x128 .bf16) (n : Fin 10000) (d : Fin 128) :
    matmul dot_S10000x256_S256x128_S10000x128_1_0_0_1_n_n none A B (constant (F := Ideal) S10000x128 .f32 0x00000000#32) (ix2 n d)
      = ∑ l : Fin 256, A (ix2 n l) * B (ix2 l d) := by
  simp only [matmul]
  rw [Ideal.matmul_constant_zero_apply, ← Equiv.sum_comp (contrEquiv1 dot_S10000x256_S256x128_S10000x128_1_0_0_1_n_n 256 rfl rfl).symm]
  refine Finset.sum_congr rfl fun k _ => ?_
  have hk := contrEquiv1_symm_val dot_S10000x256_S256x128_S10000x128_1_0_0_1_n_n 256 rfl rfl k
  have el : dot_S10000x256_S256x128_S10000x128_1_0_0_1_n_n.lhsIdx (ix2 n d) ((contrEquiv1 dot_S10000x256_S256x128_S10000x128_1_0_0_1_n_n 256 rfl rfl).symm k) = ix2 n k := funext fun a => Fin.ext (by
    match a with
    | ⟨0, _⟩ => exact lhs_mm2_0 _ _
    | ⟨1, _⟩ => exact (lhs_mm2_1 _ _).trans hk)
  have er : dot_S10000x256_S256x128_S10000x128_1_0_0_1_n_n.rhsIdx (ix2 n d) ((contrEquiv1 dot_S10000x256_S256x128_S10000x128_1_0_0_1_n_n 256 rfl rfl).symm k) = ix2 k d := funext fun a => Fin.ext (by
    match a with
    | ⟨0, _⟩ => exact (rhs_mm2_0 _ _).trans hk
    | ⟨1, _⟩ => exact rhs_mm2_1 _ _)
  rw [el, er]

/-! ## The two selection matrices read at an index -/

/-- The weighted selection matrix of the sources: at (n, l) the weight of lane l when its source word names n, else 0. -/
theorem srcSel_apply (v4 : Vec Ideal S1x256 .i32) (v8 : Vec Ideal S1x256 .f32) (n : Fin 10000) (l : Fin 256) :
    (select (cmpi .eq (broadcastTo S10000x256 (iota .tc S10000x1 32 [0] iota_S10000x1_d0_w32) broadcasts_S10000x1_S10000x256)
        (broadcastTo S10000x256 (shapeCast S1x256 v4 shapeCasts_S1x256_S1x256) broadcasts_S1x256_S10000x256))
      (broadcastTo S10000x256 (shapeCast S1x256 (truncf (F := Ideal) .bf16 (shapeCast S1x256 v8 shapeCasts_S1x256_S1x256) bitsLt_bf16_f32) shapeCasts_S1x256_S1x256) broadcasts_S1x256_S10000x256)
      (broadcast S10000x256 (Scalar.sitofp (F := Ideal) .bf16 0#32)) : FVec Ideal S10000x256 .bf16) (ix2 n l)
      = if GinSpec.hit n (v4 (ix2 (0 : Fin 1) l)) then v8 (ix2 (0 : Fin 1) l) else 0 := by
  refine (select_apply _ _ _ _).trans ?_
  show Scalar.select (IntOp.cmpi .eq _ _) _ _ = _
  rw [nodeIds_apply n l, broadcastTo_1b_ab_apply, broadcastTo_1b_ab_apply, shapeCast_self, shapeCast_self, shapeCast_self, select_cmpi]
  have h0 : Scalar.sitofp (F := Ideal) .bf16 (0#32 : BitVec 32) = (0 : EReal) := by simp
  rw [broadcast_apply, h0]
  rfl

/-- The selection matrix of the destinations: at (n, l) it is 1 when the destination word of lane l names n, else 0. -/
theorem dstSel_apply (v6 : Vec Ideal S1x256 .i32) (n : Fin 10000) (l : Fin 256) :
    (truncf (F := Ideal) .bf16 (sitofp (F := Ideal) .f32 (extui 32 (cmpi .eq (broadcastTo S10000x256 (iota .tc S10000x1 32 [0] iota_S10000x1_d0_w32) broadcasts_S10000x1_S10000x256)
        (broadcastTo S10000x256 (shapeCast S1x256 v6 shapeCasts_S1x256_S1x256) broadcasts_S1x256_S10000x256)) natLt_1_32)) bitsLt_bf16_f32 : FVec Ideal S10000x256 .bf16) (ix2 n l)
      = if GinSpec.hit n (v6 (ix2 (0 : Fin 1) l)) then (1 : EReal) else 0 := by
  refine (truncf_apply (φ := .f32) (ψ := .bf16) _ bitsLt_bf16_f32 _).trans ?_
  refine (sitofp_apply _ _).trans ?_
  show FloatOps.sitofp (F := Ideal) .f32 ((IntOp.cmpi .eq _ _).setWidth 32) = _
  rw [nodeIds_apply n l, broadcastTo_1b_ab_apply, shapeCast_self]
  exact sitofp_cmpi n _

/-! ## The three payloads -/

/-- The first payload is the block of zeros. -/
theorem pay1_apply (i : S1x10000x128.Idx) : k1_pay1 (F := Ideal) i = 0 := by
  show Scalar.ofBits (F := Ideal) .f32 0x00000000#32 = 0
  exact Ideal.ofBits_zero_f32

/-- The second payload is the feature rows as found. -/
theorem pay2_apply (x : Vec Ideal S10000x128 .f32) (n : Fin 10000) (d : Fin 128) : k1_pay2 x (ix2 n d) = x (ix2 n d) := by
  unfold k1_pay2
  refine (congrFun (shapeCast_self _ shapeCasts_S10000x128_S10000x128) (ix2 n d)).trans ?_
  refine (truncf_apply (φ := .f32) (ψ := .bf16) _ bitsLt_bf16_f32 _).trans ?_
  exact congrFun (shapeCast_self x shapeCasts_S10000x128_S10000x128) (ix2 n d)

/-- The third payload at (0, n, d): the block before, plus over the lanes the destination selection times the
    message of the lane, the message the sum over the nodes of the weighted source selection times the scratch rows. -/
theorem pay3_apply (v4 v6 : Vec Ideal S1x256 .i32) (v8 : Vec Ideal S1x256 .f32) (v19 : Vec Ideal S10000x128 .bf16)
    (v29 : Vec Ideal S1x10000x128 .f32) (n : Fin 10000) (d : Fin 128) :
    k1_pay3 v4 v6 v8 v19 v29 (ix3 (0 : Fin 1) n d)
      = v29 (ix3 (0 : Fin 1) n d) + ∑ l : Fin 256, (if GinSpec.hit n (v6 (ix2 (0 : Fin 1) l)) then (1 : EReal) else 0)
          * ∑ n' : Fin 10000, (if GinSpec.hit n' (v4 (ix2 (0 : Fin 1) l)) then v8 (ix2 (0 : Fin 1) l) else 0) * v19 (ix2 n' d) := by
  unfold k1_pay3
  refine (shapeCast_ab_1ab_apply _ shapeCasts_S10000x128_S1x10000x128 (0 : Fin 1) n d).trans ?_
  refine (addf_apply _ _ (ix2 n d)).trans ?_
  refine congrArg₂ (· + ·) (shapeCast_1ab_ab_apply v29 shapeCasts_S1x10000x128_S10000x128 n d) ?_
  refine (mm2_apply _ _ n d).trans ?_
  refine Finset.sum_congr rfl fun l _ => ?_
  refine congrArg₂ (· * ·) (dstSel_apply v6 n l) ?_
  refine (truncf_apply (φ := .f32) (ψ := .bf16) _ bitsLt_bf16_f32 _).trans ?_
  refine (mm1_apply _ _ l d).trans ?_
  refine Finset.sum_congr rfl fun n' _ => ?_
  exact congrArg (· * v19 (ix2 n' d)) (srcSel_apply v4 v8 n' l)

end Cert.KernelIdeal.Val

end
-- ==== Proof.KVal1Blk.lean ====
/-
  The blocks of the gather-and-scatter region read through their windows, and one tile's contribution.

  The region walks a grid of 2 × 1250 points; point t is tile t % 1250 of half t / 1250. The feature window's block is
  the whole array at every point; the three edge windows' block at point t is lanes t·256 … t·256 + 255 of their
  arrays, which are the 256 edges of that half's tile; the output window's block is slab t / 1250 of its array. From
  these, what the body adds at point t to entry (n, d) of its block is that tile's contribution in the specification.
-/
import proofs.«425447_j55594056679593_3_alg».proof.Proof.KI.R1Runs
import proofs.«425447_j55594056679593_3_alg».proof.Proof.KVal1Pay

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- the core's buffer contents on entry to the region, on the extended reals
variable (V : (c : Dev nD) → (b : Ref sig .tc) → Buf (Elt Ideal) ((c : Thread nD τ).loc b))

/-! ## The arrays and the blocks at their literal types -/

/-- The feature rows, the edge weights, the source words and the destination words as the region finds them. -/
abbrev Xf (c : Dev nD) : GinSpec.Mat 10000 128 := fun n k => (V c main_v0 : Vec Ideal S10000x128 .f32) (ix2 n k)
abbrev Wf (c : Dev nD) : Fin 640000 → EReal := fun e => (V c main_v1 : Vec Ideal S1x640000 .f32) (ix2 (0 : Fin 1) e)
abbrev Sf (c : Dev nD) : Fin 640000 → BitVec 32 := fun e => (V c main_v2 : Vec Ideal S1x640000 .i32) (ix2 (0 : Fin 1) e)
abbrev Df (c : Dev nD) : Fin 640000 → BitVec 32 := fun e => (V c main_v3 : Vec Ideal S1x640000 .i32) (ix2 (0 : Fin 1) e)

/-- The four input blocks at a point. -/
abbrev xblk (c : Dev nD) (t : Fin cfg1.N) : Vec Ideal S10000x128 .f32 := iblk1 V c 0 t
abbrev wblk (c : Dev nD) (t : Fin cfg1.N) : Vec Ideal S1x256 .f32 := iblk1 V c 1 t
abbrev sblk (c : Dev nD) (t : Fin cfg1.N) : Vec Ideal S1x256 .i32 := iblk1 V c 2 t
abbrev dblk (c : Dev nD) (t : Fin cfg1.N) : Vec Ideal S1x256 .i32 := iblk1 V c 3 t

/-- The half and the tile of a point. -/
abbrev halfOf (t : Fin cfg1.N) : Fin 2 := ⟨t.val / 1250, by have := t.isLt; have hN : cfg1.N = 2500 := N_1; omega⟩
abbrev tileOf (t : Fin cfg1.N) : Fin 1250 := ⟨t.val % 1250, Nat.mod_lt _ (by decide)⟩

/-! ## The index maps, decided over the grid -/

/-- The feature window stays at block (0, 0); the edge windows are at block (0, t); the output window at slab t / 1250. -/
theorem idx1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 3) = t.val / 1250 ∧ win1_4.index t (1 : Fin 3) = 0 ∧ win1_4.index t (2 : Fin 3) = 0 :=
  (by decide +kernel : ∀ t : Fin grid1.N, _)

/-! ## The blocks read through their windows -/

/-- The feature block is the feature array. -/
theorem xblk_apply (c : Dev nD) (t : Fin cfg1.N) (n : Fin 10000) (k : Fin 128) : xblk V c t (ix2 n k) = Xf V c n k := by
  obtain ⟨e0, e1, -⟩ := idx1 t
  show V c main_v0 (((cfg1.win 0).blk t).view.emb (ix2 n k)) = V c main_v0 (ix2 n k)
  refine congrArg (V c main_v0) (funext fun a => Fin.ext ?_)
  match a with
  | ⟨0, _⟩ => show win1_0.index t (0 : Fin 2) * 10000 + 1 * n.val = n.val; rw [e0]; omega
  | ⟨1, _⟩ => show win1_0.index t (1 : Fin 2) * 128 + 1 * k.val = k.val; rw [e1]; omega

/-- Lane l of the weight block at point t is the weight of that tile's edge l. -/
theorem wblk_apply (c : Dev nD) (t : Fin cfg1.N) (l : Fin 256) :
    wblk V c t (ix2 (0 : Fin 1) l) = Wf V c (GinSpec.edge (halfOf t) (tileOf t) l) := by
  obtain ⟨-, -, e0, e1, -⟩ := idx1 t
  show V c main_v1 (((cfg1.win 1).blk t).view.emb (ix2 (0 : Fin 1) l)) = V c main_v1 (ix2 (0 : Fin 1) (GinSpec.edge (halfOf t) (tileOf t) l))
  refine congrArg (V c main_v1) (funext fun a => Fin.ext ?_)
  match a with
  | ⟨0, _⟩ => show win1_1.index t (0 : Fin 2) * 1 + 1 * 0 = 0; rw [e0]
  | ⟨1, _⟩ => show win1_1.index t (1 : Fin 2) * 256 + 1 * l.val = (t.val / 1250 * 1250 + t.val % 1250) * 256 + l.val; rw [e1]; omega

/-- Lane l of the source block at point t is the source word of that tile's edge l. -/
theorem sblk_apply (c : Dev nD) (t : Fin cfg1.N) (l : Fin 256) :
    sblk V c t (ix2 (0 : Fin 1) l) = Sf V c (GinSpec.edge (halfOf t) (tileOf t) l) := by
  obtain ⟨-, -, -, -, e0, e1, -⟩ := idx1 t
  show V c main_v2 (((cfg1.win 2).blk t).view.emb (ix2 (0 : Fin 1) l)) = V c main_v2 (ix2 (0 : Fin 1) (GinSpec.edge (halfOf t) (tileOf t) l))
  refine congrArg (V c main_v2) (funext fun a => Fin.ext ?_)
  match a with
  | ⟨0, _⟩ => show win1_2.index t (0 : Fin 2) * 1 + 1 * 0 = 0; rw [e0]
  | ⟨1, _⟩ => show win1_2.index t (1 : Fin 2) * 256 + 1 * l.val = (t.val / 1250 * 1250 + t.val % 1250) * 256 + l.val; rw [e1]; omega

/-- Lane l of the destination block at point t is the destination word of that tile's edge l. -/
theorem dblk_apply (c : Dev nD) (t : Fin cfg1.N) (l : Fin 256) :
    dblk V c t (ix2 (0 : Fin 1) l) = Df V c (GinSpec.edge (halfOf t) (tileOf t) l) := by
  obtain ⟨-, -, -, -, -, -, e0, e1, -⟩ := idx1 t
  show V c main_v3 (((cfg1.win 3).blk t).view.emb (ix2 (0 : Fin 1) l)) = V c main_v3 (ix2 (0 : Fin 1) (GinSpec.edge (halfOf t) (tileOf t) l))
  refine congrArg (V c main_v3) (funext fun a => Fin.ext ?_)
  match a with
  | ⟨0, _⟩ => show win1_3.index t (0 : Fin 2) * 1 + 1 * 0 = 0; rw [e0]
  | ⟨1, _⟩ => show win1_3.index t (1 : Fin 2) * 256 + 1 * l.val = (t.val / 1250 * 1250 + t.val % 1250) * 256 + l.val; rw [e1]; omega

/-! ## One tile's contribution -/

/-- With the scratch holding the feature rows, what the body adds at point t to entry (r, d) is the contribution of
    that point's tile. -/
theorem tile_at (c : Dev nD) (t : Fin cfg1.N) (S : Vec Ideal S10000x128 .bf16)
    (hS : ∀ (n' : Fin 10000) (d : Fin 128), S (ix2 n' d) = Xf V c n' d) (r : Fin 10000) (d : Fin 128) :
    (∑ l : Fin 256, (if GinSpec.hit r (dblk V c t (ix2 (0 : Fin 1) l)) then (1 : EReal) else 0)
        * ∑ n' : Fin 10000, (if GinSpec.hit n' (sblk V c t (ix2 (0 : Fin 1) l)) then wblk V c t (ix2 (0 : Fin 1) l) else 0) * S (ix2 n' d))
      = GinSpec.tileK (Xf V c) (Wf V c) (Sf V c) (Df V c) (halfOf t) (tileOf t) r d := by
  unfold GinSpec.tileK GinSpec.msgK
  refine Finset.sum_congr rfl fun l _ => ?_
  rw [dblk_apply V c t l, sblk_apply V c t l, wblk_apply V c t l]
  refine congrArg _ (Finset.sum_congr rfl fun n' _ => ?_)
  rw [hS n' d]

end Cert.KernelIdeal.Val

end
-- ==== Proof.KVal1.lean ====
/-
  The value of the gather-and-scatter region on the extended reals.

  By induction on the grid point: after point t of half t / 1250 the scratch holds the feature rows, and entry (n, d) of
  the output block holds the running sum of that half after its first t % 1250 + 1 tiles. The output block is written
  back at the last tile of each half only, into slab t / 1250 of the result array, and the two slabs fill the array: so
  the array ends holding, in slab cc, half cc's sum over all its tiles.
-/
import proofs.«425447_j55594056679593_3_alg».proof.Proof.KI.R1
import proofs.«425447_j55594056679593_3_alg».proof.Proof.KI.R1Val
import proofs.«425447_j55594056679593_3_alg».proof.Proof.KVal1Blk
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- the core's buffer contents on entry to the region, on the extended reals
variable (V : (c : Dev nD) → (b : Ref sig .tc) → Buf (Elt Ideal) ((c : Thread nD τ).loc b))

/-! ## The running sum, one tile at a time -/

/-- One more tile: the running sum after T + 1 tiles is the sum after T plus tile T's contribution. -/
theorem accK_step (x : GinSpec.Mat 10000 128) (mask : Fin 640000 → EReal) (src dst : Fin 640000 → BitVec 32) (cc : Fin 2)
    (T : ℕ) (hT : T < 1250) (n : Fin 10000) (d : Fin 128) :
    GinSpec.accK x mask src dst cc (T + 1) n d = GinSpec.accK x mask src dst cc T n d + GinSpec.tileK x mask src dst cc ⟨T, hT⟩ n d := by
  rw [GinSpec.accK]
  dsimp only
  rw [dif_pos hT]

/-- The first tile alone. -/
theorem accK_first (x : GinSpec.Mat 10000 128) (mask : Fin 640000 → EReal) (src dst : Fin 640000 → BitVec 32) (cc : Fin 2)
    (n : Fin 10000) (d : Fin 128) :
    GinSpec.accK x mask src dst cc (0 + 1) n d = GinSpec.tileK x mask src dst cc ⟨0, by decide⟩ n d := by
  rw [accK_step x mask src dst cc 0 (by decide) n d, GinSpec.accK, zero_add]

/-! ## What each case leaves, read at an index -/

/-- At the first point of a half the scratch is left holding the feature rows. -/
theorem ptA_snd (c : Dev nD) (t : Fin cfg1.N) (h0 : t.val % 1250 = 0) (n' : Fin 10000) (d : Fin 128) :
    (outsAt1 V c t.val t.isLt).2 (ix2 n' d) = Xf V c n' d := by
  rw [outsAt1_A V c t h0]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (xblk V c t) (wblk V c t) (sblk V c t) (dblk V c t)) (ix2 n' d)).trans ?_
  exact (pay2_apply (xblk V c t) n' d).trans (xblk_apply V c t n' d)

/-- At the first point of a half the output block is left holding the first tile's contribution. -/
theorem ptA_fst (c : Dev nD) (t : Fin cfg1.N) (h0 : t.val % 1250 = 0) (r : Fin 10000) (d : Fin 128) :
    (outsAt1 V c t.val t.isLt).1 (ix3 (0 : Fin 1) r d)
      = GinSpec.tileK (Xf V c) (Wf V c) (Sf V c) (Df V c) (halfOf t) (tileOf t) r d := by
  rw [outsAt1_A V c t h0]
  dsimp only
  refine (congrFun (out1_A_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (xblk V c t) (wblk V c t) (sblk V c t) (dblk V c t)) (ix3 (0 : Fin 1) r d)).trans ?_
  refine (pay3_apply (sblk V c t) (dblk V c t) (wblk V c t) (k1_pay2 (xblk V c t)) (k1_pay1 (F := Ideal)) r d).trans ?_
  rw [pay1_apply, zero_add]
  exact tile_at V c t (k1_pay2 (xblk V c t)) (fun n' d' => (pay2_apply (xblk V c t) n' d').trans (xblk_apply V c t n' d')) r d

/-- At a later point of a half the scratch is left as it was. -/
theorem ptB_snd (c : Dev nD) (n : ℕ) (h : n + 1 < cfg1.N) (h0 : ¬(n + 1) % 1250 = 0) :
    (outsAt1 V c (n + 1) h).2 = (outsAt1 V c n (Nat.lt_of_succ_lt h)).2 := by
  rw [outsAt1_B V c ⟨n + 1, h⟩ h0]
  rfl

/-- At a later point of a half, with the scratch holding the feature rows, the output block is left holding what it
    held plus that point's tile's contribution. -/
theorem ptB_fst (c : Dev nD) (n : ℕ) (h : n + 1 < cfg1.N) (h0 : ¬(n + 1) % 1250 = 0)
    (hS : ∀ (n' : Fin 10000) (d : Fin 128), (outsAt1 V c n (Nat.lt_of_succ_lt h)).2 (ix2 n' d) = Xf V c n' d)
    (r : Fin 10000) (d : Fin 128) :
    (outsAt1 V c (n + 1) h).1 (ix3 (0 : Fin 1) r d)
      = (outsAt1 V c n (Nat.lt_of_succ_lt h)).1 (ix3 (0 : Fin 1) r d)
        + GinSpec.tileK (Xf V c) (Wf V c) (Sf V c) (Df V c) (halfOf ⟨n + 1, h⟩) (tileOf ⟨n + 1, h⟩) r d := by
  rw [outsAt1_B V c ⟨n + 1, h⟩ h0]
  dsimp only
  refine (congrFun (out1_B_4_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hc => h0 ((hcond1_0 ⟨n + 1, h⟩).mp hc)) (xblk V c ⟨n + 1, h⟩) (wblk V c ⟨n + 1, h⟩) (sblk V c ⟨n + 1, h⟩) (dblk V c ⟨n + 1, h⟩) (outsAt1 V c n (Nat.lt_of_succ_lt h)).1 (outsAt1 V c n (Nat.lt_of_succ_lt h)).2) (ix3 (0 : Fin 1) r d)).trans ?_
  refine (pay3_apply (sblk V c ⟨n + 1, h⟩) (dblk V c ⟨n + 1, h⟩) (wblk V c ⟨n + 1, h⟩) (outsAt1 V c n (Nat.lt_of_succ_lt h)).2 (outsAt1 V c n (Nat.lt_of_succ_lt h)).1 r d).trans ?_
  exact congrArg ((outsAt1 V c n (Nat.lt_of_succ_lt h)).1 (ix3 (0 : Fin 1) r d) + ·) (tile_at V c ⟨n + 1, h⟩ (outsAt1 V c n (Nat.lt_of_succ_lt h)).2 hS r d)

/-! ## The invariant over the points -/

/-- After point n: the scratch holds the feature rows, and the output block holds the running sum of half n / 1250
    after its first n % 1250 + 1 tiles. -/
theorem outs_inv (c : Dev nD) : ∀ (n : ℕ) (h : n < cfg1.N),
    (∀ (n' : Fin 10000) (d : Fin 128), (outsAt1 V c n h).2 (ix2 n' d) = Xf V c n' d)
    ∧ (∀ (r : Fin 10000) (d : Fin 128), (outsAt1 V c n h).1 (ix3 (0 : Fin 1) r d)
        = GinSpec.accK (Xf V c) (Wf V c) (Sf V c) (Df V c) (halfOf ⟨n, h⟩) (n % 1250 + 1) r d)
  | 0, h => ⟨ptA_snd V c ⟨0, h⟩ rfl, fun r d => (ptA_fst V c ⟨0, h⟩ rfl r d).trans
      (accK_first (Xf V c) (Wf V c) (Sf V c) (Df V c) (halfOf ⟨0, h⟩) r d).symm⟩
  | n + 1, h => by
    by_cases h0 : (n + 1) % 1250 = 0
    · refine ⟨ptA_snd V c ⟨n + 1, h⟩ h0, fun r d => (ptA_fst V c ⟨n + 1, h⟩ h0 r d).trans ?_⟩
      rw [h0, accK_first]
      exact congrArg (fun T => GinSpec.tileK (Xf V c) (Wf V c) (Sf V c) (Df V c) (halfOf ⟨n + 1, h⟩) T r d) (Fin.ext h0)
    · obtain ⟨ihS, ihA⟩ := outs_inv c n (Nat.lt_of_succ_lt h)
      refine ⟨fun n' d => ?_, fun r d => ?_⟩
      · rw [ptB_snd V c n h h0]; exact ihS n' d
      · rw [ptB_fst V c n h h0 ihS r d, ihA r d]
        have e1 : n / 1250 = (n + 1) / 1250 := by omega
        have e2 : n % 1250 + 1 = (n + 1) % 1250 := by omega
        have hcc : halfOf ⟨n, Nat.lt_of_succ_lt h⟩ = halfOf ⟨n + 1, h⟩ := Fin.ext e1
        rw [hcc, e2, accK_step (Xf V c) (Wf V c) (Sf V c) (Df V c) (halfOf ⟨n + 1, h⟩) ((n + 1) % 1250) (Nat.mod_lt _ (by decide)) r d]

/-! ## From the flushed blocks to the array -/

/-- The result array, by coordinates: slab cc holds half cc's sum over all its tiles. -/
abbrev Gout (c : Dev nD) : Vec Ideal S2x10000x128 .f32 := fun i =>
  GinSpec.partK (Xf V c) (Wf V c) (Sf V c) (Df V c) ⟨(i 0).val, (i 0).isLt⟩ ⟨(i 1).val, (i 1).isLt⟩ ⟨(i 2).val, (i 2).isLt⟩

/-- At the last tile of a half the output block holds that half's whole sum. -/
theorem flushed_pt (c : Dev nD) (t : Fin cfg1.N) (hf : t.val % 1250 = 1249) (j : S1x10000x128.Idx) :
    (outsAt1 V c t.val t.isLt).1 j
      = GinSpec.partK (Xf V c) (Wf V c) (Sf V c) (Df V c) (halfOf t) ⟨(j 1).val, (j 1).isLt⟩ ⟨(j 2).val, (j 2).isLt⟩ := by
  obtain ⟨u, r, d, rfl⟩ : ∃ (u : Fin 1) (r : Fin 10000) (d : Fin 128), j = ix3 u r d := ⟨j 0, j 1, j 2, eq_ix3 j⟩
  obtain rfl : u = 0 := Subsingleton.elim _ _
  rw [(outs_inv V c t.val t.isLt).2 r d, hf]
  rfl

/-- What a flushing point writes back is its block of the result array. -/
theorem flushed1_eq (c : Dev nD) (t : Fin cfg1.N) (hf : (cfg1.win 4).flush t = true) :
    (dat1 V c).flushed 4 t = ((cfg1.win 4).blk t).view.read (Elt Ideal) (Gout V c) := by
  have h9 : t.val % 1250 = 1249 := (flush1_4 t).mp hf
  obtain ⟨-, -, -, -, -, -, -, -, e0, e1, e2⟩ := idx1 t
  show (cfg1.win 4).cut (grid1.coords t) ((dat1 V c).after 4 t) = _
  rw [after1_4]
  funext j
  show (outsAt1 V c t.val t.isLt).1 j = Gout V c (((cfg1.win 4).blk t).view.emb j)
  refine (flushed_pt V c t h9 j).trans ?_
  have hj0 : (j 0).val < 1 := (j 0).isLt
  have q0 : ((((cfg1.win 4).blk t).view.emb j) 0).val = t.val / 1250 := by
    show win1_4.index t (0 : Fin 3) * 1 + 1 * (j 0).val = t.val / 1250
    rw [e0]; omega
  have q1 : ((((cfg1.win 4).blk t).view.emb j) 1).val = (j 1).val := by
    show win1_4.index t (1 : Fin 3) * 10000 + 1 * (j 1).val = (j 1).val
    rw [e1]; omega
  have q2 : ((((cfg1.win 4).blk t).view.emb j) 2).val = (j 2).val := by
    show win1_4.index t (2 : Fin 3) * 128 + 1 * (j 2).val = (j 2).val
    rw [e2]; omega
  show GinSpec.partK (Xf V c) (Wf V c) (Sf V c) (Df V c) _ _ _ = GinSpec.partK (Xf V c) (Wf V c) (Sf V c) (Df V c) _ _ _
  congr 1
  · exact Fin.ext q0.symm
  · exact Fin.ext q1.symm
  · exact Fin.ext q2.symm

/-- The result array after the region: slab cc is half cc's sum. -/
theorem arr1_eq (c : Dev nD) : (dat1 V c).arrAt 4 cfg1.N = Gout V c :=
  (dat1 V c).arrAt_eq_of_cover 4 (Gout V c) (flushed1_eq V c) fun i => by
    have hN : cfg1.N = 2500 := N_1
    have h0 : (i 0).val < 2 := (i 0).isLt
    have h1 : (i 1).val < 10000 := (i 1).isLt
    have h2 : (i 2).val < 128 := (i 2).isLt
    obtain ⟨t, ht⟩ : ∃ t : Fin cfg1.N, t.val = (i 0).val * 1250 + 1249 := ⟨⟨(i 0).val * 1250 + 1249, by omega⟩, rfl⟩
    obtain ⟨-, -, -, -, -, -, -, -, e0, e1, e2⟩ := idx1 t
    refine ⟨t, (flush1_4 t).mpr (by omega), ?_⟩
    show i ∈ ((View.whole main_v4).slice (win1_4.rect t)).set
    rw [View.set_slice_whole, Rect.mem_set_unit]
    intro a
    match a with
    | ⟨0, _⟩ => show win1_4.index t (0 : Fin 3) * 1 ≤ (i 0).val ∧ (i 0).val < win1_4.index t (0 : Fin 3) * 1 + 1; rw [e0]; omega
    | ⟨1, _⟩ => show win1_4.index t (1 : Fin 3) * 10000 ≤ (i 1).val ∧ (i 1).val < win1_4.index t (1 : Fin 3) * 10000 + 10000; rw [e1]; omega
    | ⟨2, _⟩ => show win1_4.index t (2 : Fin 3) * 128 ≤ (i 2).val ∧ (i 2).val < win1_4.index t (2 : Fin 3) * 128 + 128; rw [e2]; omega

/-- The region's result array at (cc, n, d) is half cc's sum over all its tiles at (n, d), of the arrays as the region
    finds them. -/
theorem arr1 (c : Dev nD) (cc : Fin 2) (n : Fin 10000) (d : Fin 128) :
    (dat1 (F := Ideal) V c).arrAt 4 cfg1.N (ix3 cc n d)
      = GinSpec.partK (fun n k => V c main_v0 (ix2 n k)) (fun e => V c main_v1 (ix2 (0 : Fin 1) e))
          (fun e => V c main_v2 (ix2 (0 : Fin 1) e)) (fun e => V c main_v3 (ix2 (0 : Fin 1) e)) cc n d := by
  rw [arr1_eq V c]

end Cert.KernelIdeal.Val

end
-- ==== Proof.KVal2.lean ====
import proofs.«425447_j55594056679593_3_alg».proof.Proof.KI.R2
import proofs.«425447_j55594056679593_3_alg».proof.Proof.Spec
import Idealize.ShloMosaic.Lib.Pipeline.Value
import Idealize.ShloMosaic.Lib.ValueIdx

/-! # Region 2 read at an index: the merge

The region has one grid point and every window's block is its whole array. So the output array after the
region is the body's payload of the three input arrays. The payload is pointwise: the casts are to the same
shape (the identity), the first input is scaled by the splat of the word of 1.0, and the other two are added
in turn: entry `(n, d)` is `1.0 * x n d + p0 n d + p1 n d`. -/

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- The payload at any index: the scaled first operand plus the second plus the third. -/
theorem k2_pay1_apply (x0 x1 x2 : Vec Ideal S10000x128 .f32) (i : S10000x128.Idx) :
    k2_pay1 (F := Ideal) x0 x1 x2 i = GinSpec.c1 * x0 i + x1 i + x2 i := by
  unfold k2_pay1
  simp only [shapeCast_self]
  rfl

/-! ## One block is the whole array -/

section Blocks

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- At the grid's one point every window's block index is zero on both axes. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Window 0's block is the array `main_v0`. -/
theorem iblk2_0_eq (c : Dev nD) (t : Fin cfg2.N) : (iblk2 V c 0 t : S10000x128.Idx → Elt F .f32) = V c main_v0 := by
  funext y
  show V c main_v0 (((cfg2.win 0).blk t).view.emb y) = V c main_v0 y
  refine congrArg _ (funext fun a => Fin.ext ?_)
  obtain ⟨e0, e1, -⟩ := idx2 t
  match a with
  | ⟨0, _⟩ => show win2_0.index t (0 : Fin 2) * 10000 + 1 * (y 0).val = (y 0).val; omega
  | ⟨1, _⟩ => show win2_0.index t (1 : Fin 2) * 128 + 1 * (y 1).val = (y 1).val; omega

/-- Window 1's block is the array `main_v6`. -/
theorem iblk2_1_eq (c : Dev nD) (t : Fin cfg2.N) : (iblk2 V c 1 t : S10000x128.Idx → Elt F .f32) = V c main_v6 := by
  funext y
  show V c main_v6 (((cfg2.win 1).blk t).view.emb y) = V c main_v6 y
  refine congrArg _ (funext fun a => Fin.ext ?_)
  obtain ⟨-, -, e0, e1, -⟩ := idx2 t
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- Window 2's block is the array `main_v8`. -/
theorem iblk2_2_eq (c : Dev nD) (t : Fin cfg2.N) : (iblk2 V c 2 t : S10000x128.Idx → Elt F .f32) = V c main_v8 := by
  funext y
  show V c main_v8 (((cfg2.win 2).blk t).view.emb y) = V c main_v8 y
  refine congrArg _ (funext fun a => Fin.ext ?_)
  obtain ⟨-, -, -, -, e0, e1, -⟩ := idx2 t
  match a with
  | ⟨0, _⟩ => show win2_2.index t (0 : Fin 2) * 10000 + 1 * (y 0).val = (y 0).val; omega
  | ⟨1, _⟩ => show win2_2.index t (1 : Fin 2) * 128 + 1 * (y 1).val = (y 1).val; omega

/-- What the one point writes back is the block, all of it, of the payload of the three input arrays. -/
theorem flushed2_eq (c : Dev nD) (t : Fin cfg2.N) :
    (dat2 V c).flushed 3 t = ((cfg2.win 3).blk t).view.read (Elt F) (k2_pay1 (V c main_v0) (V c main_v6) (V c main_v8)) := by
  show (cfg2.win 3).cut (grid2.coords t) ((dat2 V c).after 3 t) = _
  rw [after2_3]
  unfold out2_3
  rw [View.canon_unit_zero hz2]
  simp only [View.ld_unit_zero (S := S10000x128) hz2]
  rw [iblk2_0_eq, iblk2_1_eq, iblk2_2_eq]
  funext y
  show k2_pay1 (V c main_v0) (V c main_v6) (V c main_v8) y = k2_pay1 (V c main_v0) (V c main_v6) (V c main_v8) (((cfg2.win 3).blk t).view.emb y)
  refine congrArg _ (funext fun a => Fin.ext ?_)
  obtain ⟨-, -, -, -, -, -, e0, e1⟩ := idx2 t
  match a with
  | ⟨0, _⟩ => show (y 0).val = win2_3.index t (0 : Fin 2) * 10000 + 1 * (y 0).val; omega
  | ⟨1, _⟩ => show (y 1).val = win2_3.index t (1 : Fin 2) * 128 + 1 * (y 1).val; omega

/-- An index of the array is in point `t`'s block iff each coordinate is in the block's range on its axis. -/
theorem mem_blk2 (t : Fin cfg2.N) (i : S10000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v9).slice (win2_3.rect t)).set ↔ _
  rw [View.set_slice_whole, Rect.mem_set_unit]
  exact Iff.rfl

/-- The one point's block covers the array. -/
theorem cover2 (i : S10000x128.Idx) : ∃ t : Fin cfg2.N, (cfg2.win 3).flush t = true ∧ i ∈ ((cfg2.win 3).blk t).view.set := by
  refine ⟨t2_0, flush2_3 t2_0, ?_⟩
  rw [mem_blk2]
  obtain ⟨-, -, -, -, -, -, e0, e1⟩ := idx2 t2_0
  have hi0 : (i 0).val < 10000 := (i 0).isLt
  have hi1 : (i 1).val < 128 := (i 1).isLt
  intro a
  match a with
  | ⟨0, _⟩ => show win2_3.index t2_0 (0 : Fin 2) * 10000 ≤ (i 0).val ∧ (i 0).val < win2_3.index t2_0 (0 : Fin 2) * 10000 + 10000; omega
  | ⟨1, _⟩ => show win2_3.index t2_0 (1 : Fin 2) * 128 ≤ (i 1).val ∧ (i 1).val < win2_3.index t2_0 (1 : Fin 2) * 128 + 128; omega

/-- The output array after the region is the payload of the three input arrays. -/
theorem arr2_eq (c : Dev nD) :
    (dat2 V c).arrAt 3 cfg2.N = (k2_pay1 (V c main_v0) (V c main_v6) (V c main_v8) : S10000x128.Idx → Elt F .f32) :=
  (dat2 V c).arrAt_eq_of_cover 3 _ (fun t _ => flushed2_eq V c t) cover2

end Blocks

/-! ## The array at an index -/

/-- Entry `(n, d)` of the output array: the scaled entry of `main_v0` plus those of `main_v6` and `main_v8`. -/
theorem arr2 (V : (c : Dev nD) → (b : Ref sig .tc) → Buf (Elt Ideal) ((c : Thread nD τ).loc b)) (c : Dev nD) (n : Fin 10000) (d : Fin 128) :
    (dat2 (F := Ideal) V c).arrAt 3 cfg2.N (ix2 n d)
      = GinSpec.outK (fun n k => V c main_v0 (ix2 n k)) (fun n k => V c main_v6 (ix2 n k)) (fun n k => V c main_v8 (ix2 n k)) n d := by
  refine (congrFun (arr2_eq V c) (ix2 n d)).trans ?_
  exact k2_pay1_apply (V c main_v0) (V c main_v6) (V c main_v8) (ix2 n d)

end Cert.KernelIdeal.Val

end
-- ==== Proof.KHost.lean ====
import proofs.«425447_j55594056679593_3_alg».proof.Proof.KI.Run
import Idealize.ShloMosaic.Lib.Pipeline.Value
import Idealize.ShloMosaic.Lib.ValueIdx

/-! # What the regions are entered with

Between the kernel regions the host only rearranges arrays. Before region 1 three flat arrays of 640000 entries
(the edge weights, the source words, the destination words) are viewed as one row each. Before region 2 the
stack of two 10000 × 128 halves that region 1 leaves is cut into its halves and each half's unit axis is dropped.
Read at an index these are the same entries at renamed positions. The projected features that region 0 leaves are
touched by no host operation and are only read by region 1, so regions 1 and 2 both find them as region 0 left them.
Nothing here does arithmetic, so every statement holds for any float values. -/

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The rearrangements at an index -/

/-- A flat array of 640000 entries viewed as one row reads entry `e` at `(0, e)`. -/
theorem row_apply {α : Type} (x : S640000.Idx → α) (h : S640000.ShapeCasts S1x640000) (e : Fin 640000) :
    shapeCast S1x640000 x h (ix2 (0 : Fin 1) e) = x (ix1 e) :=
  shapeCast_apply x h (ix2 (0 : Fin 1) e) (ix1 e) (by
    rw [Shape.rowMajor_val_one, Shape.rowMajor_val_two]
    show e.val = (0 : Fin 1).val * 640000 + e.val
    simp)

/-- The first of two stacked 10000 × 128 arrays, its unit axis dropped, reads the stack at `(0, n, d)`. -/
theorem half0_apply {α : Type} (x : S2x10000x128.Idx → α) (hs : S2x10000x128.Slices ![0, 0, 0] S1x10000x128)
    (hc : S1x10000x128.ShapeCasts S10000x128) (n : Fin 10000) (d : Fin 128) :
    shapeCast S10000x128 (extractStridedSlice S1x10000x128 ![0, 0, 0] x hs) hc (ix2 n d) = x (ix3 (0 : Fin 2) n d) := by
  refine (shapeCast_apply _ hc (ix2 n d) (ix3 (0 : Fin 1) n d) ?_).trans ?_
  · rw [Shape.rowMajor_val_three, Shape.rowMajor_val_two]
    show ((0 : Fin 1).val * 10000 + n.val) * 128 + d.val = n.val * 128 + d.val
    simp
  · refine extractStridedSlice_apply ![0, 0, 0] x hs _ (ix3 (0 : Fin 2) n d) fun a => ?_
    match a with
    | ⟨0, _⟩ => rfl
    | ⟨1, _⟩ => show n.val = 0 + n.val; omega
    | ⟨2, _⟩ => show d.val = 0 + d.val; omega

/-- The second of the two reads the stack at `(1, n, d)`. -/
theorem half1_apply {α : Type} (x : S2x10000x128.Idx → α) (hs : S2x10000x128.Slices ![1, 0, 0] S1x10000x128)
    (hc : S1x10000x128.ShapeCasts S10000x128) (n : Fin 10000) (d : Fin 128) :
    shapeCast S10000x128 (extractStridedSlice S1x10000x128 ![1, 0, 0] x hs) hc (ix2 n d) = x (ix3 (1 : Fin 2) n d) := by
  refine (shapeCast_apply _ hc (ix2 n d) (ix3 (0 : Fin 1) n d) ?_).trans ?_
  · rw [Shape.rowMajor_val_three, Shape.rowMajor_val_two]
    show ((0 : Fin 1).val * 10000 + n.val) * 128 + d.val = n.val * 128 + d.val
    simp
  · refine extractStridedSlice_apply ![1, 0, 0] x hs _ (ix3 (1 : Fin 2) n d) fun a => ?_
    match a with
    | ⟨0, _⟩ => rfl
    | ⟨1, _⟩ => show n.val = 0 + n.val; omega
    | ⟨2, _⟩ => show d.val = 0 + d.val; omega

variable {F : FTy → Type} [FloatOps F]
variable (m : (ℓ : Loc nD τ sig) → Buf (Elt F) ℓ) (ρ : Dev nD → PrngReg)

/-! ## Region 0's entry: the launch memory -/

theorem V0_main_arg0 (c : Dev nD) : V0 m c main_arg0 = m ((c : Thread nD τ).loc main_arg0) := rfl
theorem V0_main_arg4 (c : Dev nD) : V0 m c main_arg4 = m ((c : Thread nD τ).loc main_arg4) := rfl

/-! ## Region 1's entry -/

/-- The projected features: region 0's output array, which the three reshapes do not write. -/
theorem V2_main_v0 (c : Dev nD) : V2 m ρ c main_v0 = (dat0 (V0 m) c).arrAt 2 cfg0.N :=
  (hostOps1_keeps (W1 m ρ c) main_v0 (by decide) (by decide) (by decide)).trans (W1_arr m ρ c 2)

/-- The edge weights as one row: region 0 has no window on the flat array, so it is the launch memory's. -/
theorem V2_main_v1 (c : Dev nD) (e : Fin 640000) :
    V2 m ρ c main_v1 (ix2 (0 : Fin 1) e) = m ((c : Thread nD τ).loc main_arg1) (ix1 e) := by
  have h : (V2 m ρ c main_v1 : S1x640000.Idx → Elt F .f32)
      = shapeCast S1x640000 (W1 m ρ c (Proc.devRef .tc main_arg1)) shapeCasts_S640000_S1x640000 := by
    show StableHlo.after hostOps1 (W1 m ρ c) (Proc.devRef .tc main_v1) = _
    dsimp only [hostOps1]
    after_results
    rfl
  rw [h, row_apply, W1_of_ne m ρ c main_arg1 (by decide)]

/-- The source words as one row. -/
theorem V2_main_v2 (c : Dev nD) (e : Fin 640000) :
    V2 m ρ c main_v2 (ix2 (0 : Fin 1) e) = m ((c : Thread nD τ).loc main_arg2) (ix1 e) := by
  have h : (V2 m ρ c main_v2 : S1x640000.Idx → Elt F .i32)
      = shapeCast S1x640000 (W1 m ρ c (Proc.devRef .tc main_arg2)) shapeCasts_S640000_S1x640000 := by
    show StableHlo.after hostOps1 (W1 m ρ c) (Proc.devRef .tc main_v2) = _
    dsimp only [hostOps1]
    after_results
    rfl
  rw [h, row_apply, W1_of_ne m ρ c main_arg2 (by decide)]

/-- The destination words as one row. -/
theorem V2_main_v3 (c : Dev nD) (e : Fin 640000) :
    V2 m ρ c main_v3 (ix2 (0 : Fin 1) e) = m ((c : Thread nD τ).loc main_arg3) (ix1 e) := by
  have h : (V2 m ρ c main_v3 : S1x640000.Idx → Elt F .i32)
      = shapeCast S1x640000 (W1 m ρ c (Proc.devRef .tc main_arg3)) shapeCasts_S640000_S1x640000 := by
    show StableHlo.after hostOps1 (W1 m ρ c) (Proc.devRef .tc main_v3) = _
    dsimp only [hostOps1]
    after_results
    rfl
  rw [h, row_apply, W1_of_ne m ρ c main_arg3 (by decide)]

/-! ## Region 2's entry -/

/-- The projected features again: region 1 only reads them (an input window's array is left as found) and
    the slices and reshapes do not write them. -/
theorem V4_main_v0 (c : Dev nD) : V4 m ρ c main_v0 = (dat0 (V0 m) c).arrAt 2 cfg0.N :=
  calc V4 m ρ c main_v0
    _ = W3 m ρ c (Proc.devRef .tc main_v0) := hostOps2_keeps (W3 m ρ c) main_v0 (by decide) (by decide) (by decide) (by decide)
    _ = (dat1 (V2 m ρ) c).arrAt 0 cfg1.N := W3_arr m ρ c 0
    _ = V2 m ρ c main_v0 := ((dat1 (V2 m ρ) c).arrAt_in 0 rfl _).trans (A_eq1 (V2 m ρ) c 0)
    _ = (dat0 (V0 m) c).arrAt 2 cfg0.N := V2_main_v0 m ρ c

/-- The first half of what region 1 leaves. -/
theorem V4_main_v6 (c : Dev nD) (n : Fin 10000) (d : Fin 128) :
    V4 m ρ c main_v6 (ix2 n d) = (dat1 (V2 m ρ) c).arrAt 4 cfg1.N (ix3 (0 : Fin 2) n d) := by
  have h : (V4 m ρ c main_v6 : S10000x128.Idx → Elt F .f32)
      = shapeCast S10000x128 (extractStridedSlice S1x10000x128 ![0, 0, 0] (W3 m ρ c (Proc.devRef .tc main_v4)) slices_S2x10000x128_S1x10000x128_0_0_0) shapeCasts_S1x10000x128_S10000x128 := by
    show StableHlo.after hostOps2 (W3 m ρ c) (Proc.devRef .tc main_v6) = _
    dsimp only [hostOps2]
    after_results
    rfl
  rw [h, half0_apply]
  exact congrFun (W3_arr m ρ c 4) _

/-- The second half of what region 1 leaves. -/
theorem V4_main_v8 (c : Dev nD) (n : Fin 10000) (d : Fin 128) :
    V4 m ρ c main_v8 (ix2 n d) = (dat1 (V2 m ρ) c).arrAt 4 cfg1.N (ix3 (1 : Fin 2) n d) := by
  have h : (V4 m ρ c main_v8 : S10000x128.Idx → Elt F .f32)
      = shapeCast S10000x128 (extractStridedSlice S1x10000x128 ![1, 0, 0] (W3 m ρ c (Proc.devRef .tc main_v4)) slices_S2x10000x128_S1x10000x128_1_0_0) shapeCasts_S1x10000x128_S10000x128 := by
    show StableHlo.after hostOps2 (W3 m ρ c) (Proc.devRef .tc main_v8) = _
    dsimp only [hostOps2]
    after_results
    rfl
  rw [h, half1_apply]
  exact congrFun (W3_arr m ρ c 4) _

end Cert.KernelIdeal.Val

end
-- ==== Proof.KFinal.lean ====
import proofs.«425447_j55594056679593_3_alg».proof.Proof.KVal0
import proofs.«425447_j55594056679593_3_alg».proof.Proof.KVal1
import proofs.«425447_j55594056679593_3_alg».proof.Proof.KVal2
import proofs.«425447_j55594056679593_3_alg».proof.Proof.KHost
import proofs.«425447_j55594056679593_3_alg».proof.Proof.Spec

/-! # The result of @main at an index

The three regions and the two host stretches composed: the result array is region 2's output, whose inputs are
the projected features region 0 leaves and the two halves region 1 leaves; region 1's inputs are the same
projected features and the launch memory's edge weights, source words and destination words seen as rows. -/

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- Entry `(n, d)` of the result is the first side of the claim at the launch memory's arrays: region 2 merges
    the projected features with the two halves region 1 leaves; region 1 sums the edge messages over the projected
    features, the weights and the two word arrays; region 0 projects. Each region's inputs are traced back through
    the host's rearrangements to the launch memory, where the projection, the two half sums and the merge are the
    specification's functions at equal arguments. -/
theorem final (m : (ℓ : Loc nD τ sig) → Buf (Elt Ideal) ℓ) (ρ : Dev nD → PrngReg)
    (c : Dev nD) (n : Fin 10000) (d : Fin 128) :
    W5 (F := Ideal) m ρ c (Proc.devRef .tc main_v9) (ix2 n d)
      = GinSpec.kernelOut (fun n k => m ((c : Thread nD τ).loc main_arg0) (ix2 n k)) (fun e => m ((c : Thread nD τ).loc main_arg1) (ix1 e))
          (fun e => m ((c : Thread nD τ).loc main_arg2) (ix1 e)) (fun e => m ((c : Thread nD τ).loc main_arg3) (ix1 e))
          (fun a b => m ((c : Thread nD τ).loc main_arg4) (ix2 a b)) n d := by
  -- the projected features, as region 1 and as region 2 find them
  have hx2 : (fun (n : Fin 10000) (k : Fin 128) => V2 m ρ c main_v0 (ix2 n k))
      = GinSpec.hwF (fun n k => m ((c : Thread nD τ).loc main_arg0) (ix2 n k)) (fun a b => m ((c : Thread nD τ).loc main_arg4) (ix2 a b)) := by
    funext n k
    exact (congrFun (V2_main_v0 m ρ c) (ix2 n k)).trans (arr0 (V0 m) c n k)
  have hx4 : (fun (n : Fin 10000) (k : Fin 128) => V4 m ρ c main_v0 (ix2 n k))
      = GinSpec.hwF (fun n k => m ((c : Thread nD τ).loc main_arg0) (ix2 n k)) (fun a b => m ((c : Thread nD τ).loc main_arg4) (ix2 a b)) := by
    funext n k
    exact (congrFun (V4_main_v0 m ρ c) (ix2 n k)).trans (arr0 (V0 m) c n k)
  -- the edge weights and the two word arrays, as region 1 finds them
  have hmask : (fun (e : Fin 640000) => V2 m ρ c main_v1 (ix2 (0 : Fin 1) e)) = fun e => m ((c : Thread nD τ).loc main_arg1) (ix1 e) :=
    funext fun e => V2_main_v1 m ρ c e
  have hsrc : (fun (e : Fin 640000) => V2 m ρ c main_v2 (ix2 (0 : Fin 1) e)) = fun e => m ((c : Thread nD τ).loc main_arg2) (ix1 e) :=
    funext fun e => V2_main_v2 m ρ c e
  have hdst : (fun (e : Fin 640000) => V2 m ρ c main_v3 (ix2 (0 : Fin 1) e)) = fun e => m ((c : Thread nD τ).loc main_arg3) (ix1 e) :=
    funext fun e => V2_main_v3 m ρ c e
  -- the half `cc` that region 1 leaves
  have hp : ∀ cc : Fin 2, (fun (n : Fin 10000) (d : Fin 128) => (dat1 (V2 m ρ) c).arrAt 4 cfg1.N (ix3 cc n d))
      = GinSpec.partK (GinSpec.hwF (fun n k => m ((c : Thread nD τ).loc main_arg0) (ix2 n k)) (fun a b => m ((c : Thread nD τ).loc main_arg4) (ix2 a b)))
          (fun e => m ((c : Thread nD τ).loc main_arg1) (ix1 e)) (fun e => m ((c : Thread nD τ).loc main_arg2) (ix1 e))
          (fun e => m ((c : Thread nD τ).loc main_arg3) (ix1 e)) cc := by
    intro cc
    funext n d
    rw [arr1 (V2 m ρ) c cc n d, hx2, hmask, hsrc, hdst]
  -- the two halves, as region 2 finds them
  have h6 : (fun (n : Fin 10000) (k : Fin 128) => V4 m ρ c main_v6 (ix2 n k))
      = GinSpec.partK (GinSpec.hwF (fun n k => m ((c : Thread nD τ).loc main_arg0) (ix2 n k)) (fun a b => m ((c : Thread nD τ).loc main_arg4) (ix2 a b)))
          (fun e => m ((c : Thread nD τ).loc main_arg1) (ix1 e)) (fun e => m ((c : Thread nD τ).loc main_arg2) (ix1 e))
          (fun e => m ((c : Thread nD τ).loc main_arg3) (ix1 e)) 0 := by
    rw [← hp 0]
    funext n k
    exact V4_main_v6 m ρ c n k
  have h8 : (fun (n : Fin 10000) (k : Fin 128) => V4 m ρ c main_v8 (ix2 n k))
      = GinSpec.partK (GinSpec.hwF (fun n k => m ((c : Thread nD τ).loc main_arg0) (ix2 n k)) (fun a b => m ((c : Thread nD τ).loc main_arg4) (ix2 a b)))
          (fun e => m ((c : Thread nD τ).loc main_arg1) (ix1 e)) (fun e => m ((c : Thread nD τ).loc main_arg2) (ix1 e))
          (fun e => m ((c : Thread nD τ).loc main_arg3) (ix1 e)) 1 := by
    rw [← hp 1]
    funext n k
    exact V4_main_v8 m ρ c n k
  -- the result is region 2's output array
  refine (congrFun (W5_main_v9 m ρ c) (ix2 n d)).trans ?_
  rw [arr2 (V4 m ρ) c n d, hx4, h6, h8]
  rfl

end Cert.KernelIdeal.Val

end
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.RefVal.lean ====
/-
  The reference's result read at an index.

  The reference wraps a negative source word by the number of nodes, reads the feature row that word names (the row
  index clamped into the table), scales the row by the edge's weight, adds it to the row the destination word names
  (read signed; a word that names no row drops the edge), adds the scaled features, and projects by the transposed
  matrix. Read at `(n, d)` this is `GinSpec.refOut` with `refRow` for the row an edge reads; where the source word
  already names a node, `refRow` is that node.
-/
import proofs.«425447_j55594056679593_3_alg».proof.Proof.Gen.ReferenceIdeal.Read
import proofs.«425447_j55594056679593_3_alg».proof.Proof.LibGatherScatter
import proofs.«425447_j55594056679593_3_alg».proof.Proof.Spec

noncomputable section

namespace Cert.ReferenceIdeal.RefVal

open Cert.ReferenceIdeal Cert.ReferenceIdeal.Gen Cert.ReferenceIdeal.Read Idealize.ShloMosaic Idealize.ShloMosaic.ValueIdx
  Idealize.ShloMosaic.StableHlo

/-- The feature row edge `e` reads: its source word, plus the number of nodes when it is negative as a signed integer,
    clamped into the table. -/
def refRow (x2 : IVec S640000 32) (e : Fin 640000) : Fin 10000 :=
  LibGatherScatter.clampRow 10000 (by decide)
    (Scalar.select (IntOp.cmpi .slt (x2 (ix1 e)) 0#32) (IntOp.addi (x2 (ix1 e)) 10000#32) (x2 (ix1 e)))

/-! ## Index equations -/

theorem idx5_eq (e : Fin 640000) : idx_main_v5 (ix2 e (0 : Fin 1)) = ix1 e :=
  funext fun a => Fin.ext (by match a with | ⟨0, _⟩ => rfl)

theorem idx11_eq (e : Fin 640000) : idx_main_v11 (ix2 e (0 : Fin 1)) = ix1 e :=
  funext fun a => Fin.ext (by match a with | ⟨0, _⟩ => rfl)

theorem idx78_eq (e : Fin 640000) (k : Fin 128) : idx_main_v7 (idx_main_v8 (ix2 e k)) = ix1 e :=
  funext fun a => Fin.ext (by match a with | ⟨0, _⟩ => rfl)

theorem idx16_eq (k d : Fin 128) : idx_main_v16 (ix2 k d) = ix2 d k :=
  funext fun a => Fin.ext (by match a with | ⟨0, _⟩ => rfl | ⟨1, _⟩ => rfl)

theorem lidx17_eq (n : Fin 10000) (d k : Fin 128) : lidx_main_v17 (ix2 n d) k = ix2 n k :=
  funext fun a => Fin.ext (by match a with | ⟨0, _⟩ => rfl | ⟨1, _⟩ => rfl)

theorem ridx17_eq (n : Fin 10000) (d k : Fin 128) : ridx_main_v17 (ix2 n d) k = ix2 k d :=
  funext fun a => Fin.ext (by match a with | ⟨0, _⟩ => rfl | ⟨1, _⟩ => rfl)

/-! ## The stages the generated reading leaves out -/

/-- The start index word of edge `e`: the wrapped source word. -/
theorem src_word (x2 : (⟨S640000, .i32⟩ : BufTy).Contents (Elt Ideal)) (e : Fin 640000) :
    val_main_v5 (F := Ideal) x2 (ix2 e (0 : Fin 1))
      = Scalar.select (IntOp.cmpi .slt (x2 (ix1 e)) 0#32) (IntOp.addi (x2 (ix1 e)) 10000#32) (x2 (ix1 e)) := by
  rw [val_main_v5_apply, idx5_eq, val_main_v4_apply, val_main_v1_apply, val_main_v3_apply, val_main_v0_apply,
    val_main_v2_apply, val_main_c_apply, val_main_c_0_apply]

/-- The gathered rows: entry `(e, k)` is the features at row `refRow e`, column `k`. -/
theorem gathered_apply (x0 : (⟨S10000x128, .f32⟩ : BufTy).Contents (Elt Ideal))
    (x2 : (⟨S640000, .i32⟩ : BufTy).Contents (Elt Ideal)) (e : Fin 640000) (k : Fin 128) :
    val_main_v6 (F := Ideal) x0 x2 (ix2 e k) = x0 (ix2 (refRow x2 e) k) := by
  unfold val_main_v6
  have hrec : gather_S10000x128_S640000x1_S640000x128_1_0_n_n_0_1_1128
      = LibGatherScatter.rowsDims 10000 640000 128 Facts₀.gather_S10000x128_S640000x1_S640000x128_1_0_n_n_0_1_1128_wf := rfl
  rw [hrec, LibGatherScatter.gather_rows_apply (by decide), src_word]
  rfl

/-- The edge weights spread along the columns: entry `(e, k)` is the weight of edge `e`. -/
theorem weight_apply (x1 : (⟨S640000, .f32⟩ : BufTy).Contents (Elt Ideal)) (e : Fin 640000) (k : Fin 128) :
    val_main_v8 (F := Ideal) x1 (ix2 e k) = x1 (ix1 e) := by
  rw [val_main_v8_apply, val_main_v7_apply, idx78_eq]

/-- The scattered sum: entry `(n, k)` is the sum, over the edges whose destination word names `n`, of the row the
    edge reads at column `k` times the edge's weight. -/
theorem scattered_apply (x0 : (⟨S10000x128, .f32⟩ : BufTy).Contents (Elt Ideal))
    (x1 : (⟨S640000, .f32⟩ : BufTy).Contents (Elt Ideal)) (x2 x3 : (⟨S640000, .i32⟩ : BufTy).Contents (Elt Ideal))
    (n : Fin 10000) (k : Fin 128) :
    val_main_v12 (F := Ideal) x0 x1 x2 x3 (ix2 n k)
      = ∑ e ∈ Finset.univ.filter (fun e : Fin 640000 => GinSpec.hit n (x3 (ix1 e))), x0 (ix2 (refRow x2 e) k) * x1 (ix1 e) := by
  unfold val_main_v12 Host.scatterAdd
  rw [Ideal.hostScatterAdd_def]
  have hrec : scatter_S10000x128_S640000x1_S640000x128_1_0_0_1
      = LibGatherScatter.scatRowsDims 10000 640000 128 Facts₀.scatter_S10000x128_S640000x1_S640000x128_1_0_0_1_wf := rfl
  rw [hrec, LibGatherScatter.scatterAdd_rows_apply, val_main_v10_apply, val_main_cst_apply, Ideal.ofBits_def,
    Ideal.ofBits_zero_f32, zero_add]
  refine Finset.sum_congr (Finset.filter_congr fun e _ => ?_) fun e _ => ?_
  · rw [val_main_v11_apply, idx11_eq]; rfl
  · rw [val_main_v9_apply, gathered_apply, weight_apply, Ideal.mulf_def]

/-! ## The reference read at an index -/

theorem ref_apply (x0 : (⟨S10000x128, .f32⟩ : BufTy).Contents (Elt Ideal)) (x1 : (⟨S640000, .f32⟩ : BufTy).Contents (Elt Ideal))
    (x2 x3 : (⟨S640000, .i32⟩ : BufTy).Contents (Elt Ideal)) (x4 : (⟨S128x128, .f32⟩ : BufTy).Contents (Elt Ideal))
    (n : Fin 10000) (d : Fin 128) :
    Cert.ReferenceIdeal.Read.val_main_v17 (F := Ideal) x0 x1 x2 x3 x4 (ValueIdx.ix2 n d)
      = GinSpec.refOut (fun n k => x0 (ValueIdx.ix2 n k)) (fun e => x1 (ValueIdx.ix1 e)) (refRow x2)
          (fun e => x3 (ValueIdx.ix1 e)) (fun a b => x4 (ValueIdx.ix2 a b)) n d := by
  rw [val_main_v17_apply]
  unfold GinSpec.refOut GinSpec.c1
  refine Finset.sum_congr rfl fun k _ => ?_
  rw [lidx17_eq, ridx17_eq, val_main_v16_apply, idx16_eq, val_main_v15_apply, val_main_v14_apply, val_main_v13_apply,
    val_main_cst_1_apply, scattered_apply, Ideal.addf_def, Ideal.mulf_def, Ideal.ofBits_def]

/-- Where the source word of edge `e` names a node, that node is the row the edge reads. -/
theorem refRow_hit (x2 : IVec S640000 32) (e : Fin 640000) (h0 : 0 ≤ (x2 (ValueIdx.ix1 e)).toInt)
    (h1 : (x2 (ValueIdx.ix1 e)).toInt < 10000) : GinSpec.hit (refRow x2 e) (x2 (ValueIdx.ix1 e)) := by
  unfold GinSpec.hit refRow LibGatherScatter.clampRow
  generalize x2 (ix1 e) = w at h0 h1 ⊢
  have hneg : IntOp.cmpi .slt w 0#32 = 0#1 := by
    unfold IntOp.cmpi
    have : w.slt 0#32 = false := by
      rw [BitVec.slt, decide_eq_false_iff_not]
      show ¬ w.toInt < (0#32).toInt
      rw [BitVec.toInt_zero]; omega
    rw [this]; rfl
  rw [hneg]
  unfold Scalar.select
  rw [if_neg (by decide)]
  show w.toInt = ((min w.toInt.toNat (10000 - 1) : Nat) : ℤ)
  omega

end Cert.ReferenceIdeal.RefVal

end
-- ==== Proof.PreFacts.lean ====
/-
  The precondition read back. The predicate `finite_inputs` of the five argument arrays is the conjunction
  all |h| < +∞  ∧  all |mask| < +∞  ∧  all |W| < +∞  ∧  all (0 ≤ src ∧ src < 10000, signed),
  each `all` a reduction by `and` of an array of bits to a scalar, the four scalars joined by `and`.
  Over the extended reals |x| = max x (−x) and the pattern 0x7F800000 denotes +∞, so |x| < +∞ says that x is
  neither infinity: x is a real. A signed comparison of words that is 1 is the comparison of their signed values.
-/
import proofs.«425447_j55594056679593_3_alg».proof.Pre_finite_inputs
import proofs.«425447_j55594056679593_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

/-- The scalar shape has one index. -/
instance : Subsingleton S_.Idx := ⟨fun a b => funext fun d => d.elim0⟩

/-- The f32 pattern 0x7F800000 denotes +∞. -/
theorem inf_pattern : Ideal.ofBits .f32 0x7F800000#32 = (⊤ : EReal) := by simp [Ideal.ofBits, Ideal.ieee]

/-- An extended real whose absolute value max x (−x) is strictly below +∞ is a real:
    at −∞ the negation is +∞, at +∞ the value itself is, and +∞ < +∞ is false. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- One float conjunct: if the reduction by `and` of the bits |x i| < +∞ over every axis is 1, every entry of x is a real.
    The bound is the scalar +∞ broadcast to the array's shape: every entry of it is that scalar. -/
theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ValueIdx.ix0 = 1#1)
    (i : s.Idx) : ∃ r : ℝ, x i = (r : EReal) := by
  have h := Host.reduce_andi_all _ _ hr h0 _ e i
  exact real_of_abs_lt_inf (x i) h

/-- The integer conjunct: if the reduction by `and` of the bits (0 ≤ a i) ∧ (a i < 10000), signed, is 1,
    every word of a has its signed value in [0, 10000). Each bound is a scalar broadcast to the vector's shape. -/
theorem range_of_all {s : Shape} {axes : List (Fin s.rank)} (a : IVec s 32)
    (hb : S_.BroadcastsInDim s (![] : Fin 0 → Fin s.rank)) (hr : s.ReducesTo axes S_) (h0 : 0 < S_.numel)
    (e : Host.reduce IntOp.andi
          (andi (cmpi .sge a (broadcastInDim s ![] hb (constantI S_ 32 0#32)))
                (cmpi .slt a (broadcastInDim s ![] hb (constantI S_ 32 10000#32))))
          (constantI S_ 1 1#1) hr h0 ValueIdx.ix0 = 1#1)
    (i : s.Idx) : 0 ≤ (a i).toInt ∧ (a i).toInt < 10000 := by
  have h := Host.reduce_andi_all _ _ hr h0 _ e i
  change IntOp.andi (IntOp.cmpi .sge (a i) 0#32) (IntOp.cmpi .slt (a i) 10000#32) = 1#1 at h
  rw [IntOp.andi_eq_one, IntOp.cmpi_sge, IntOp.cmpi_slt] at h
  have z : (0#32 : BitVec 32).toInt = 0 := by decide
  have t : (10000#32 : BitVec 32).toInt = 10000 := by decide
  rw [z] at h; rw [t] at h
  exact h

variable [Cert.Pre_finite_inputs.Facts]

/-- THE PRECONDITION DECODED: where `finite_inputs` of the five arrays is 1, every entry of h, of the mask and of W is a real,
    and every source index has its signed value in [0, 10000). -/
theorem of_pre (a0 : FVec Ideal S10000x128 .f32) (a1 : FVec Ideal S640000 .f32) (a2 a3 : IVec S640000 32)
    (a4 : FVec Ideal S128x128 .f32)
    (hp : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a4 i = (r : EReal))
      ∧ (∀ i, 0 ≤ (a2 i).toInt ∧ (a2 i).toInt < 10000) := by
  have e := congrFun hp ValueIdx.ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨e0, e1⟩, e4⟩, e2⟩ := e
  exact ⟨fun i => real_of_all a0 _ _ _ e0 i, fun i => real_of_all a1 _ _ _ e1 i, fun i => real_of_all a4 _ _ _ e4 i,
    fun i => range_of_all a2 _ _ _ e2 i⟩

end Cert.PreFacts

end
-- ==== Proof.Bridge.lean ====
/-
  The two sides of the graph layer agree on real data.

  One side projects the features first and then, edge by edge, adds the weighted projected row of the edge's source to
  the row of its destination, the edges read tile by tile in two halves; the other side adds the weighted source rows
  per destination first and projects last. The steps:

  * a 32-bit word names at most one node, so an edge's selection row has a single nonzero entry and the edge's message
    is its weight times the row of its source;
  * the running sum of a half from zero is the sum over its 1250 tiles;
  * half, tile and lane number the 640000 edges once each, so the two halves together are one sum over all edges,
    of which only the edges whose destination word names the node contribute;
  * on real entries both sides are finite sums of products of reals, and there the projection distributes over the
    sum of the rows (on the extended reals it would not, at the infinities, which is why the last step is taken in ℝ).
-/
import proofs.«425447_j55594056679593_3_alg».proof.Proof.Spec
import Mathlib.Data.EReal.Basic
import Mathlib.Data.Fintype.EquivFin
import Mathlib.Data.Fintype.BigOperators
import Mathlib.Algebra.BigOperators.Fin
import Mathlib.Algebra.BigOperators.Group.Finset.Basic
import Mathlib.Tactic.Ring
import Mathlib.Tactic.NormNum

noncomputable section

namespace GinSpec

open Idealize.ShloMosaic

/-! ## A word names at most one node -/

/-- The signed value of a word decides the node it names. -/
theorem hit_unique {n n' : Fin 10000} {w : BitVec 32} (h : hit n w) (h' : hit n' w) : n = n' := by
  unfold hit at h h'
  have e : (n.val : ℤ) = (n'.val : ℤ) := h.symm.trans h'
  exact Fin.ext (by exact_mod_cast e)

/-- The selection row of edge `e` is zero away from the node its source word names, so the message is the weight times
    that node's row. -/
theorem msgK_eq (x : Mat 10000 128) (mask : Fin 640000 → EReal) (src : Fin 640000 → BitVec 32)
    (row : Fin 640000 → Fin 10000) (hrow : ∀ e, hit (row e) (src e)) (e : Fin 640000) (d : Fin 128) :
    msgK x mask src e d = mask e * x (row e) d := by
  unfold msgK
  rw [Finset.sum_eq_single (row e)]
  · rw [if_pos (hrow e)]
  · intro n _ hne
    rw [if_neg (fun hn => hne (hit_unique hn (hrow e))), zero_mul]
  · intro hnot
    exact absurd (Finset.mem_univ _) hnot

/-! ## The running sum of a half -/

/-- After `T` tiles the running sum is the sum of the first `T` tiles' contributions (tiles past the last add zero). -/
theorem accK_eq_sum_range (x : Mat 10000 128) (mask : Fin 640000 → EReal) (src dst : Fin 640000 → BitVec 32)
    (cc : Fin 2) (T : ℕ) (n : Fin 10000) (d : Fin 128) :
    accK x mask src dst cc T n d
      = ∑ i ∈ Finset.range T, (if h : i < 1250 then tileK x mask src dst cc ⟨i, h⟩ n d else 0) := by
  induction T with
  | zero => simp [accK]
  | succ T ih => rw [Finset.sum_range_succ, ← ih, accK]

/-- A half's sum is the sum over its 1250 tiles. -/
theorem partK_eq_sum (x : Mat 10000 128) (mask : Fin 640000 → EReal) (src dst : Fin 640000 → BitVec 32)
    (cc : Fin 2) (n : Fin 10000) (d : Fin 128) :
    partK x mask src dst cc n d = ∑ t : Fin 1250, tileK x mask src dst cc t n d := by
  unfold partK
  rw [accK_eq_sum_range,
    ← Fin.sum_univ_eq_sum_range (fun i => if h : i < 1250 then tileK x mask src dst cc ⟨i, h⟩ n d else 0) 1250]
  refine Finset.sum_congr rfl fun t _ => ?_
  rw [dif_pos t.isLt]

/-! ## Half, tile and lane number the edges once each -/

theorem edge_bijective : Function.Bijective (fun p : Fin 2 × Fin 1250 × Fin 256 => edge p.1 p.2.1 p.2.2) := by
  rw [Fintype.bijective_iff_injective_and_card]
  constructor
  · rintro ⟨c, t, l⟩ ⟨c', t', l'⟩ hEq
    have hv : (c.val * 1250 + t.val) * 256 + l.val = (c'.val * 1250 + t'.val) * 256 + l'.val :=
      congrArg Fin.val hEq
    have := c.isLt; have := c'.isLt; have := t.isLt; have := t'.isLt; have := l.isLt; have := l'.isLt
    have hc : c = c' := Fin.ext (by omega)
    have ht : t = t' := Fin.ext (by omega)
    have hl : l = l' := Fin.ext (by omega)
    rw [hc, ht, hl]
  · simp [Fintype.card_prod, Fintype.card_fin]

/-- A sum over halves, tiles and lanes of a function of the edge is the sum over all edges. -/
theorem sum_edges (g : Fin 640000 → EReal) :
    ∑ cc : Fin 2, ∑ t : Fin 1250, ∑ l : Fin 256, g (edge cc t l) = ∑ e : Fin 640000, g e := by
  rw [← Fintype.sum_bijective _ edge_bijective (fun p => g (edge p.1 p.2.1 p.2.2)) g (fun _ => rfl),
    Fintype.sum_prod_type]
  refine Finset.sum_congr rfl fun cc _ => ?_
  rw [Fintype.sum_prod_type]

/-- The two halves together: the weighted source rows of the edges whose destination word names `n`. -/
theorem parts_eq (x : Mat 10000 128) (mask : Fin 640000 → EReal) (src dst : Fin 640000 → BitVec 32)
    (row : Fin 640000 → Fin 10000) (hrow : ∀ e, hit (row e) (src e)) (n : Fin 10000) (d : Fin 128) :
    partK x mask src dst 0 n d + partK x mask src dst 1 n d
      = ∑ e ∈ Finset.univ.filter (fun e : Fin 640000 => hit n (dst e)), mask e * x (row e) d := by
  rw [partK_eq_sum, partK_eq_sum,
    ← Fin.sum_univ_two (fun cc => ∑ t : Fin 1250, tileK x mask src dst cc t n d)]
  simp only [tileK]
  rw [sum_edges (fun e => (if hit n (dst e) then (1 : EReal) else 0) * msgK x mask src e d), Finset.sum_filter]
  refine Finset.sum_congr rfl fun e _ => ?_
  rw [msgK_eq x mask src row hrow]
  by_cases hn : hit n (dst e)
  · rw [if_pos hn, if_pos hn, one_mul]
  · rw [if_neg hn, if_neg hn, zero_mul]

/-! ## Real entries -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of 1.0 denotes the real number one. -/
theorem c1_eq_one : c1 = ((1 : ℝ) : EReal) := by
  unfold c1
  simp [Ideal.ofBits, Ideal.ieee, -EReal.coe_mul]
  norm_num

/-- The projection of real matrices is the real projection. -/
theorem hwF_coe (hr : Fin 10000 → Fin 128 → ℝ) (Wr : Fin 128 → Fin 128 → ℝ) (n : Fin 10000) (d : Fin 128) :
    hwF (fun n k => (hr n k : EReal)) (fun a b => (Wr a b : EReal)) n d
      = ((∑ k, hr n k * Wr d k : ℝ) : EReal) := by
  unfold hwF
  rw [coe_finset_sum]
  exact Finset.sum_congr rfl fun k _ => (EReal.coe_mul _ _).symm

/-- In the reals: projecting each row and then adding the weighted rows is adding the weighted rows and then
    projecting, by distributivity and an exchange of the two finite sums. -/
theorem real_core (S : Finset (Fin 640000)) (c : ℝ) (hr : Fin 10000 → Fin 128 → ℝ) (mr : Fin 640000 → ℝ)
    (Wr : Fin 128 → Fin 128 → ℝ) (row : Fin 640000 → Fin 10000) (n : Fin 10000) (d : Fin 128) :
    c * (∑ k, hr n k * Wr d k) + ∑ e ∈ S, mr e * ∑ k, hr (row e) k * Wr d k
      = ∑ k, (c * hr n k + ∑ e ∈ S, hr (row e) k * mr e) * Wr d k := by
  simp only [add_mul, Finset.sum_add_distrib, Finset.mul_sum, Finset.sum_mul]
  congr 1
  · exact Finset.sum_congr rfl fun _ _ => by ring
  · rw [Finset.sum_comm]
    exact Finset.sum_congr rfl fun _ _ => Finset.sum_congr rfl fun _ _ => by ring

/-- The same identity with every entry read as an extended real. -/
theorem ereal_core (S : Finset (Fin 640000)) (c : ℝ) (hr : Fin 10000 → Fin 128 → ℝ) (mr : Fin 640000 → ℝ)
    (Wr : Fin 128 → Fin 128 → ℝ) (row : Fin 640000 → Fin 10000) (n : Fin 10000) (d : Fin 128) :
    (c : EReal) * ((∑ k, hr n k * Wr d k : ℝ) : EReal)
        + ∑ e ∈ S, (mr e : EReal) * ((∑ k, hr (row e) k * Wr d k : ℝ) : EReal)
      = ∑ k, ((c : EReal) * (hr n k : EReal) + ∑ e ∈ S, (hr (row e) k : EReal) * (mr e : EReal)) * (Wr d k : EReal) := by
  have key := congrArg (fun r : ℝ => (r : EReal)) (real_core S c hr mr Wr row n d)
  simp only [EReal.coe_add, EReal.coe_mul, coe_finset_sum] at key
  simp only [EReal.coe_mul, coe_finset_sum]
  exact key

/-! ## The two sides agree -/

theorem kernelOut_eq_refOut (h : Mat 10000 128) (mask : Fin 640000 → EReal) (src dst : Fin 640000 → BitVec 32)
    (W : Mat 128 128) (row : Fin 640000 → Fin 10000)
    (hh : ∀ n k, ∃ r : ℝ, h n k = (r : EReal)) (hm : ∀ e, ∃ r : ℝ, mask e = (r : EReal))
    (hW : ∀ a b, ∃ r : ℝ, W a b = (r : EReal)) (hrow : ∀ e, hit (row e) (src e)) :
    kernelOut h mask src dst W = refOut h mask row dst W := by
  choose hr hhr using hh
  choose mr hmr using hm
  choose Wr hWr using hW
  obtain rfl : h = fun n k => (hr n k : EReal) := funext fun n => funext fun k => hhr n k
  obtain rfl : mask = fun e => (mr e : EReal) := funext hmr
  obtain rfl : W = fun a b => (Wr a b : EReal) := funext fun a => funext fun b => hWr a b
  funext n d
  unfold kernelOut outK refOut
  rw [add_assoc, parts_eq _ _ src dst row hrow]
  simp only [hwF_coe, c1_eq_one]
  exact ereal_core _ 1 hr mr Wr row n d

end GinSpec

end
-- ==== Proof.lean ====
/-
  A graph layer on 10000 nodes with 128 features and 640000 weighted edges: `out = (h + Σ_{e : dst e = ·} mask e · h[src e]) · Wᵀ`.

  The kernel side computes it in three launches. The first projects, `x = h · Wᵀ`. The second walks the edges in
  two halves of 1250 tiles of 256: per tile it builds, against the column of node numbers, a selection matrix
  holding the edge's weight at its source node and a 0/1 matrix at its destination node, and adds
  `dstSel · (srcSelᵀ · x)` to the half's running sum (zeroed at the half's first tile; the projected features kept
  in a buffer filled at that tile). The third adds `1·x` and the two halves. The reference gathers the source rows
  of `h`, scales them, scatter-adds them by destination, adds `1·h` and projects last.

  The two agree on the extended reals when every float entry is a real number (products distribute over the sums
  only there) and every source word names a node (outside `[0, 10000)` the reference's gather clamps to a row
  while a selection row matches nothing): both are in the precondition. A destination word out of range is dropped
  by both sides and needs no hypothesis.

  The frames of the two kernel programs are one text, generic in the float family: per launch the proof data and
  the body's run, then @main as a list of launches and host stretches. The kernel's result is read off that run
  launch by launch (`KFinal`), the reference's off its generated run (`RefVal`), and `Bridge` is the algebra.
-/
import proofs.«425447_j55594056679593_3_alg».proof.Defs
import proofs.«425447_j55594056679593_3_alg».proof.Proof.Gen.Kernel
import proofs.«425447_j55594056679593_3_alg».proof.Proof.Gen.KernelIdeal
import proofs.«425447_j55594056679593_3_alg».proof.Proof.Gen.ReferenceIdeal
import proofs.«425447_j55594056679593_3_alg».proof.Proof.Gen.ReferenceIdeal.Run
import proofs.«425447_j55594056679593_3_alg».proof.Proof.Gen.ReferenceIdeal.Read
import proofs.«425447_j55594056679593_3_alg».proof.Proof.Gen.Pre_finite_inputs
import proofs.«425447_j55594056679593_3_alg».proof.Proof.K.Run
import proofs.«425447_j55594056679593_3_alg».proof.Proof.KI.Run
import proofs.«425447_j55594056679593_3_alg».proof.Proof.KFinal
import proofs.«425447_j55594056679593_3_alg».proof.Proof.RefVal
import proofs.«425447_j55594056679593_3_alg».proof.Proof.PreFacts
import proofs.«425447_j55594056679593_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs to the end with its arguments unchanged. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the two programs end with the same array: the kernel's run leaves
    `GinSpec.kernelOut` of the arguments, the reference's `GinSpec.refOut`, and under the precondition (every float
    entry real, every source word a node) these are one function. -/
theorem algebraic : Cert.algebraic_KernelIdeal_ReferenceIdeal := by
  intro m ρ m' ρ' hpre hagree
  refine ⟨fun c => Cert.KernelIdeal.Hand.W5 (F := Ideal) m ρ c (Proc.devRef .tc Cert.KernelIdeal.main_v9), ?_, ?_⟩
  · exact (θ_run Cert.KernelIdeal.defs _ _).mono (fun r h c =>
      ⟨h c _ (Cert.KernelIdeal.Hand.mem_uc Cert.KernelIdeal.main_v9 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c)⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    obtain ⟨hh, hm, hW, hs⟩ := Cert.PreFacts.of_pre _ _ _ _ _ (hpre c)
    rw [(hagree c).1, (hagree c).2.1, (hagree c).2.2.1, (hagree c).2.2.2.1, (hagree c).2.2.2.2]
    refine (Cert.ReferenceIdeal.Read.val_main_v17_eq _ _ _ _ _).trans ?_
    funext i
    obtain ⟨n, d, rfl⟩ : ∃ (n : Fin 10000) (d : Fin 128), i = ix2 n d := ⟨i 0, i 1, eq_ix2 i⟩
    rw [Cert.ReferenceIdeal.RefVal.ref_apply]
    refine Eq.trans ?_ (Cert.KernelIdeal.Val.final m ρ c n d).symm
    exact (congrFun (congrFun (GinSpec.kernelOut_eq_refOut _ _ _ _ _ _
      (fun n k => hh (ix2 n k)) (fun e => hm (ix1 e)) (fun a b => hW (ix2 a b))
      (fun e => Cert.ReferenceIdeal.RefVal.refRow_hit _ e (hs (ix1 e)).1 (hs (ix1 e)).2)) n) d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
